-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25_1)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_1) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S2x4800000 : Shape := ⟨2, ![2, 4800000]⟩
abbrev S4800000 : Shape := ⟨1, ![4800000]⟩
abbrev S300000x32 : Shape := ⟨2, ![300000, 32]⟩
abbrev S2x288x32 : Shape := ⟨3, ![2, 288, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S4800000 : S_.BroadcastsInDim S4800000 (![] : Fin 0 → Fin S4800000.rank)
  reducesTo_S4800000_S_d0 : S4800000.ReducesTo [0] S_
  bcast_S_S300000x32 : S_.BroadcastsInDim S300000x32 (![] : Fin 0 → Fin S300000x32.rank)
  reducesTo_S300000x32_S_d0_1 : S300000x32.ReducesTo [0, 1] S_
  bcast_S_S2x288x32 : S_.BroadcastsInDim S2x288x32 (![] : Fin 0 → Fin S2x288x32.rank)
  reducesTo_S2x288x32_S_d0_1_2 : S2x288x32.ReducesTo [0, 1, 2] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S2x288x32 .f32) (main_arg9 : FVec F S32 .f32) (main_arg10 : FVec F S32x3 .f32) (main_arg11 : FVec F S3 .f32) (main_v33 : IVec S_ 1) : IVec S_ 1 :=
  let main_v34 : FVec F S2x288x32 .f32 := Host.absf main_arg8
  let main_cst_12 : FVec F S_ .f32 := constant S_ .f32 0x7F800000#32
  let main_v35 : FVec F S2x288x32 .f32 := broadcastInDim S2x288x32 ![] bcast_S_S2x288x32 main_cst_12
  let main_v36 : IVec S2x288x32 1 := cmpf .olt main_v34 main_v35
  let main_c_13 : IVec S_ 1 := constantI S_ 1 1#1
  let main_v37 : IVec S_ 1 := (fun x v => Host.reduce IntOp.andi x v reducesTo_S2x288x32_S_d0_1_2 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x3 .f32 := Host.absf main_arg10
  let main_cst_16 : FVec F S_ .f32 := constant S_ .f32 0x7F800000#32
  let main_v45 : FVec F S32x3 .f32 := broadcastInDim S32x3 ![] bcast_S_S32x3 main_cst_16
  let main_v46 : IVec S32x3 1 := cmpf .olt main_v44 main_v45
  let main_c_17 : IVec S_ 1 := constantI S_ 1 1#1
  let main_v47 : IVec S_ 1 := (fun x v => Host.reduce IntOp.andi x v reducesTo_S32x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S32 .f32) (main_arg6 : FVec F S2x288x32 .f32) (main_arg7 : FVec F S32 .f32) (main_arg8 : FVec F S2x288x32 .f32) (main_arg9 : FVec F S32 .f32) (main_arg10 : FVec F S32x3 .f32) (main_arg11 : FVec F S3 .f32) (main_v13 : IVec S_ 1) (main_v16 : IVec S2x288x32 1) : IVec S_ 1 :=
  let main_c_5 : IVec S_ 1 := constantI S_ 1 1#1
  let main_v17 : IVec S_ 1 := (fun x v => Host.reduce IntOp.andi x v reducesTo_S2x288x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x288x32 .f32 := Host.absf main_arg6
  let main_cst_8 : FVec F S_ .f32 := constant S_ .f32 0x7F800000#32
  let main_v25 : FVec F S2x288x32 .f32 := broadcastInDim S2x288x32 ![] bcast_S_S2x288x32 main_cst_8
  let main_v26 : IVec S2x288x32 1 := cmpf .olt main_v24 main_v25
  let main_c_9 : IVec S_ 1 := constantI S_ 1 1#1
  let main_v27 : IVec S_ 1 := (fun x v => Host.reduce IntOp.andi x v reducesTo_S2x288x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S300000x256 .f32) (main_arg1 : IVec S2x4800000 32) (main_arg2 : FVec F S4800000 .f32) (main_arg3 : FVec F S300000x32 .f32) (main_arg4 : FVec F S2x288x32 .f32) (main_arg5 : FVec F S32 .f32) (main_arg6 : FVec F S2x288x32 .f32) (main_arg7 : FVec F S32 .f32) (main_arg8 : FVec F S2x288x32 .f32) (main_arg9 : FVec F S32 .f32) (main_arg10 : FVec F S32x3 .f32) (main_arg11 : FVec F S3 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S4800000 .f32 := Host.absf main_arg2
  let main_cst_0 : FVec F S_ .f32 := constant S_ .f32 0x7F800000#32
  let main_v5 : FVec F S4800000 .f32 := broadcastInDim S4800000 ![] bcast_S_S4800000 main_cst_0
  let main_v6 : IVec S4800000 1 := cmpf .olt main_v4 main_v5
  let main_c_1 : IVec S_ 1 := constantI S_ 1 1#1
  let main_v7 : IVec S_ 1 := (fun x v => Host.reduce IntOp.andi x v reducesTo_S4800000_S_d0 h_S_) main_v6 main_c_1
  let main_v8 : IVec S_ 1 := andi main_v3 main_v7
  let main_v9 : FVec F S300000x32 .f32 := Host.absf main_arg3
  let main_cst_2 : FVec F S_ .f32 := constant S_ .f32 0x7F800000#32
  let main_v10 : FVec F S300000x32 .f32 := broadcastInDim S300000x32 ![] bcast_S_S300000x32 main_cst_2
  let main_v11 : IVec S300000x32 1 := cmpf .olt main_v9 main_v10
  let main_c_3 : IVec S_ 1 := constantI S_ 1 1#1
  let main_v12 : IVec S_ 1 := (fun x v => Host.reduce IntOp.andi x v reducesTo_S300000x32_S_d0_1 h_S_) main_v11 main_c_3
  let main_v13 : IVec S_ 1 := andi main_v8 main_v12
  let main_v14 : FVec F S2x288x32 .f32 := Host.absf main_arg4
  let main_cst_4 : FVec F S_ .f32 := constant S_ .f32 0x7F800000#32
  let main_v15 : FVec F S2x288x32 .f32 := broadcastInDim S2x288x32 ![] bcast_S_S2x288x32 main_cst_4
  let main_v16 : IVec S2x288x32 1 := cmpf .olt main_v14 main_v15
  fn_part1 (F := F) main_arg5 main_arg6 main_arg7 main_arg8 main_arg9 main_arg10 main_arg11 main_v13 main_v16
-- ==== Kernel.lean ====
abbrev S300000x256 : Shape := ⟨2, ![300000, 256]⟩
abbrev S2x4800000 : Shape := ⟨2, ![2, 4800000]⟩
abbrev S4800000 : Shape := ⟨1, ![4800000]⟩
abbrev S300000x32 : Shape := ⟨2, ![300000, 32]⟩
abbrev S2x288x32 : Shape := ⟨3, ![2, 288, 32]⟩
abbrev S32 : Shape := ⟨1, ![32]⟩
abbrev S32x3 : Shape := ⟨2, ![32, 3]⟩
abbrev S3 : Shape := ⟨1, ![3]⟩
abbrev S1x288x32 : Shape := ⟨3, ![1, 288, 32]⟩
abbrev S288x32 : Shape := ⟨2, ![288, 32]⟩
abbrev S256x32 : Shape := ⟨2, ![256, 32]⟩
abbrev S32x32 : Shape := ⟨2, ![32, 32]⟩
abbrev S1x32 : Shape := ⟨2, ![1, 32]⟩
abbrev S1x3 : Shape := ⟨2, ![1, 3]⟩
abbrev S300000x3 : Shape := ⟨2, ![300000, 3]⟩
abbrev S2000x256 : Shape := ⟨2, ![2000, 256]⟩
abbrev S2000x32 : Shape := ⟨2, ![2000, 32]⟩
abbrev S2000x3 : Shape := ⟨2, ![2000, 3]⟩

abbrev nBuf : Space → Nat
  | .hbm => 39
  | .vmem => 19
  | .smem => 0
  | _ => 0

abbrev bufTy : (tb : Table) → Fin (tcTables nBuf tb) → BufTy
  | .hbm, ⟨0, _⟩ => ⟨S300000x256, .f32⟩
  | .hbm, ⟨1, _⟩ => ⟨S2x4800000, .i32⟩
  | .hbm, ⟨2, _⟩ => ⟨S4800000, .f32⟩
  | .hbm, ⟨3, _⟩ => ⟨S300000x32, .f32⟩
  | .hbm, ⟨4, _⟩ => ⟨S2x288x32, .f32⟩
  | .hbm, ⟨5, _⟩ => ⟨S32, .f32⟩
  | .hbm, ⟨6, _⟩ => ⟨S2x288x32, .f32⟩
  | .hbm, ⟨7, _⟩ => ⟨S32, .f32⟩
  | .hbm, ⟨8, _⟩ => ⟨S2x288x32, .f32⟩
  | .hbm, ⟨9, _⟩ => ⟨S32, .f32⟩
  | .hbm, ⟨10, _⟩ => ⟨S32x3, .f32⟩
  | .hbm, ⟨11, _⟩ => ⟨S3, .f32⟩
  | .hbm, ⟨12, _⟩ => ⟨S1x288x32, .f32⟩
  | .hbm, ⟨13, _⟩ => ⟨S288x32, .f32⟩
  | .hbm, ⟨14, _⟩ => ⟨S1x288x32, .f32⟩
  | .hbm, ⟨15, _⟩ => ⟨S288x32, .f32⟩
  | .hbm, ⟨16, _⟩ => ⟨S288x32, .f32⟩
  | .hbm, ⟨17, _⟩ => ⟨S1x288x32, .f32⟩
  | .hbm, ⟨18, _⟩ => ⟨S288x32, .f32⟩
  | .hbm, ⟨19, _⟩ => ⟨S1x288x32, .f32⟩
  | .hbm, ⟨20, _⟩ => ⟨S288x32, .f32⟩
  | .hbm, ⟨21, _⟩ => ⟨S288x32, .f32⟩
  | .hbm, ⟨22, _⟩ => ⟨S1x288x32, .f32⟩
  | .hbm, ⟨23, _⟩ => ⟨S288x32, .f32⟩
  | .hbm, ⟨24, _⟩ => ⟨S1x288x32, .f32⟩
  | .hbm, ⟨25, _⟩ => ⟨S288x32, .f32⟩
  | .hbm, ⟨26, _⟩ => ⟨S288x32, .f32⟩
  | .hbm, ⟨27, _⟩ => ⟨S256x32, .f32⟩
  | .hbm, ⟨28, _⟩ => ⟨S32x32, .f32⟩
  | .hbm, ⟨29, _⟩ => ⟨S256x32, .f32⟩
  | .hbm, ⟨30, _⟩ => ⟨S32x32, .f32⟩
  | .hbm, ⟨31, _⟩ => ⟨S256x32, .f32⟩
  | .hbm, ⟨32, _⟩ => ⟨S32x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S1x3, .f32⟩
  | .hbm, ⟨37, _⟩ => ⟨S300000x32, .f32⟩
  | .hbm, ⟨38, _⟩ => ⟨S300000x3, .f32⟩
  | .local _ .vmem, ⟨0, _⟩ => ⟨S2000x256, .f32⟩
  | .local _ .vmem, ⟨1, _⟩ => ⟨S2000x256, .f32⟩
  | .local _ .vmem, ⟨2, _⟩ => ⟨S2000x32, .f32⟩
  | .local _ .vmem, ⟨3, _⟩ => ⟨S2000x32, .f32⟩
  | .local _ .vmem, ⟨4, _⟩ => ⟨S256x32, .f32⟩
  | .local _ .vmem, ⟨5, _⟩ => ⟨S32x32, .f32⟩
  | .local _ .vmem, ⟨6, _⟩ => ⟨S1x32, .f32⟩
  | .local _ .vmem, ⟨7, _⟩ => ⟨S256x32, .f32⟩
  | .local _ .vmem, ⟨8, _⟩ => ⟨S32x32, .f32⟩
  | .local _ .vmem, ⟨9, _⟩ => ⟨S1x32, .f32⟩
  | .local _ .vmem, ⟨10, _⟩ => ⟨S256x32, .f32⟩
  | .local _ .vmem, ⟨11, _⟩ => ⟨S32x32, .f32⟩
  | .local _ .vmem, ⟨12, _⟩ => ⟨S1x32, .f32⟩
  | .local _ .vmem, ⟨13, _⟩ => ⟨S32x3, .f32⟩
  | .local _ .vmem, ⟨14, _⟩ => ⟨S1x3, .f32⟩
  | .local _ .vmem, ⟨15, _⟩ => ⟨S2000x32, .f32⟩
  | .local _ .vmem, ⟨16, _⟩ => ⟨S2000x32, .f32⟩
  | .local _ .vmem, ⟨17, _⟩ => ⟨S2000x3, .f32⟩
  | .local _ .vmem, ⟨18, _⟩ => ⟨S2000x3, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x288x32_S1x288x32_0_0_0 : S2x288x32.Slices ![0, 0, 0] S1x288x32
  shapeCasts_S1x288x32_S288x32 : S1x288x32.ShapeCasts S288x32
  slices_S2x288x32_S1x288x32_1_0_0 : S2x288x32.Slices ![1, 0, 0] S1x288x32
  slices_S288x32_S256x32_0_0 : S288x32.Slices ![0, 0] S256x32
  slices_S288x32_S32x32_256_0 : S288x32.Slices ![256, 0] S32x32
  shapeCasts_S32_S1x32 : S32.ShapeCasts S1x32
  shapeCasts_S3_S1x3 : S3.ShapeCasts S1x3
  inb_S2000x256_S2000x256_0_0 : ∀ a, (![0, 0] : Fin 2 → Nat) a + S2000x256.size a ≤ S2000x256.size a
  h_S2000x256 : 0 < S2000x256.numel
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  dot_S2000x256_S256x32_S2000x32_1_0_0_1_n_n_wf : DotDims.WF S2000x256 S256x32 S2000x32 [1] [0] [0] [1] [] []
  dot_S2000x32_S32x32_S2000x32_1_0_0_1_n_n_wf : DotDims.WF S2000x32 S32x32 S2000x32 [1] [0] [0] [1] [] []
  dot_S2000x32_S32x3_S2000x3_1_0_0_1_n_n_wf : DotDims.WF S2000x32 S32x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S300000x256.size a
  hwx0_0 : ∀ i : grid0.Coords, EltTy.bits .f32 = 32 ∨ (Rect.block (s := S300000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S300000x32.size a
  hwx0_1 : ∀ i : grid0.Coords, EltTy.bits .f32 = 32 ∨ (Rect.block (s := S300000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x32.size a ≤ S256x32.size a
  hwx0_8 : ∀ i : grid0.Coords, EltTy.bits .f32 = 32 ∨ (Rect.block (s := S256x32) S256x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x3.size a ≤ S32x3.size a
  hwx0_11 : ∀ i : grid0.Coords, EltTy.bits .f32 = 32 ∨ (Rect.block (s := S32x3) S32x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x32.size a ≤ S300000x32.size a
  hwx0_13 : ∀ i : grid0.Coords, EltTy.bits .f32 = 32 ∨ (Rect.block (s := S300000x32) S2000x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x3.size a ≤ S300000x3.size a
  hwx0_14 : ∀ i : grid0.Coords, EltTy.bits .f32 = 32 ∨ (Rect.block (s := S300000x3) S2000x3.size (cc0_transform_14 i) (hinb0_14 i)).WholeWords (EltTy.packing .f32)

variable [Facts₀]

def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x3_S2000x3_1_0_0_1_n_n : DotDims S2000x32 S32x3 S2000x3 where
  lhsContracting := [1]
  rhsContracting := [0]
  lhsNonContracting := [0]
  rhsNonContracting := [1]
  lhsBatch := []
  rhsBatch := []
  wf := dot_S2000x32_S32x3_S2000x3_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S256x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S32x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25_0) S2000x32.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v25_1) S2000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S300000x256 : Shape := ⟨2, ![300000, 256]⟩
abbrev S2x4800000 : Shape := ⟨2, ![2, 4800000]⟩
abbrev S4800000 : Shape := ⟨1, ![4800000]⟩
abbrev S300000x32 : Shape := ⟨2, ![300000, 32]⟩
abbrev S2x288x32 : Shape := ⟨3, ![2, 288, 32]⟩
abbrev S32 : Shape := ⟨1, ![32]⟩
abbrev S32x3 : Shape := ⟨2, ![32, 3]⟩
abbrev S3 : Shape := ⟨1, ![3]⟩
abbrev S300000x288 : Shape := ⟨2, ![300000, 288]⟩
abbrev S1x288x32 : Shape := ⟨3, ![1, 288, 32]⟩
abbrev S288x32 : Shape := ⟨2, ![288, 32]⟩
abbrev S1x32 : Shape := ⟨2, ![1, 32]⟩
abbrev S_ : Shape := ⟨0, ![]⟩
abbrev S300000x3 : Shape := ⟨2, ![300000, 3]⟩
abbrev S1x3 : Shape := ⟨2, ![1, 3]⟩

abbrev nBuf : Space → Nat
  | .hbm => 72
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S2x4800000, .i32⟩
  | .hbm, ⟨2, _⟩ => ⟨S4800000, .f32⟩
  | .hbm, ⟨3, _⟩ => ⟨S300000x32, .f32⟩
  | .hbm, ⟨4, _⟩ => ⟨S2x288x32, .f32⟩
  | .hbm, ⟨5, _⟩ => ⟨S32, .f32⟩
  | .hbm, ⟨6, _⟩ => ⟨S2x288x32, .f32⟩
  | .hbm, ⟨7, _⟩ => ⟨S32, .f32⟩
  | .hbm, ⟨8, _⟩ => ⟨S2x288x32, .f32⟩
  | .hbm, ⟨9, _⟩ => ⟨S32, .f32⟩
  | .hbm, ⟨10, _⟩ => ⟨S32x3, .f32⟩
  | .hbm, ⟨11, _⟩ => ⟨S3, .f32⟩
  | .hbm, ⟨12, _⟩ => ⟨S300000x288, .f32⟩
  | .hbm, ⟨13, _⟩ => ⟨S1x288x32, .f32⟩
  | .hbm, ⟨14, _⟩ => ⟨S288x32, .f32⟩
  | .hbm, ⟨15, _⟩ => ⟨S1x288x32, .f32⟩
  | .hbm, ⟨16, _⟩ => ⟨S288x32, .f32⟩
  | .hbm, ⟨17, _⟩ => ⟨S288x32, .f32⟩
  | .hbm, ⟨18, _⟩ => ⟨S300000x32, .f32⟩
  | .hbm, ⟨19, _⟩ => ⟨S1x32, .f32⟩
  | .hbm, ⟨20, _⟩ => ⟨S300000x32, .f32⟩
  | .hbm, ⟨21, _⟩ => ⟨S300000x32, .f32⟩
  | .hbm, ⟨22, _⟩ => ⟨S300000x32, .f32⟩
  | .hbm, ⟨23, _⟩ => ⟨S300000x32, .f32⟩
  | .hbm, ⟨24, _⟩ => ⟨S_, .f32⟩
  | .hbm, ⟨25, _⟩ => ⟨S300000x32, .f32⟩
  | .hbm, ⟨26, _⟩ => ⟨S300000x32, .f32⟩
  | .hbm, ⟨27, _⟩ => ⟨S_, .f32⟩
  | .hbm, ⟨28, _⟩ => ⟨S300000x32, .f32⟩
  | .hbm, ⟨29, _⟩ => ⟨S300000x32, .f32⟩
  | .hbm, ⟨30, _⟩ => ⟨S1x288x32, .f32⟩
  | .hbm, ⟨31, _⟩ => ⟨S288x32, .f32⟩
  | .hbm, ⟨32, _⟩ => ⟨S1x288x32, .f32⟩
  | .hbm, ⟨33, _⟩ => ⟨S288x32, .f32⟩
  | .hbm, ⟨34, _⟩ => ⟨S288x32, .f32⟩
  | .hbm, ⟨35, _⟩ => ⟨S300000x32, .f32⟩
  | .hbm, ⟨36, _⟩ => ⟨S1x32, .f32⟩
  | .hbm, ⟨37, _⟩ => ⟨S300000x32, .f32⟩
  | .hbm, ⟨38, _⟩ => ⟨S300000x32, .f32⟩
  | .hbm, ⟨39, _⟩ => ⟨S300000x32, .f32⟩
  | .hbm, ⟨40, _⟩ => ⟨S300000x32, .f32⟩
  | .hbm, ⟨41, _⟩ => ⟨S_, .f32⟩
  | .hbm, ⟨42, _⟩ => ⟨S300000x32, .f32⟩
  | .hbm, ⟨43, _⟩ => ⟨S300000x32, .f32⟩
  | .hbm, ⟨44, _⟩ => ⟨S_, .f32⟩
  | .hbm, ⟨45, _⟩ => ⟨S300000x32, .f32⟩
  | .hbm, ⟨46, _⟩ => ⟨S300000x32, .f32⟩
  | .hbm, ⟨47, _⟩ => ⟨S300000x32, .f32⟩
  | .hbm, ⟨48, _⟩ => ⟨S300000x288, .f32⟩
  | .hbm, ⟨49, _⟩ => ⟨S1x288x32, .f32⟩
  | .hbm, ⟨50, _⟩ => ⟨S288x32, .f32⟩
  | .hbm, ⟨51, _⟩ => ⟨S1x288x32, .f32⟩
  | .hbm, ⟨52, _⟩ => ⟨S288x32, .f32⟩
  | .hbm, ⟨53, _⟩ => ⟨S288x32, .f32⟩
  | .hbm, ⟨54, _⟩ => ⟨S300000x32, .f32⟩
  | .hbm, ⟨55, _⟩ => ⟨S1x32, .f32⟩
  | .hbm, ⟨56, _⟩ => ⟨S300000x32, .f32⟩
  | .hbm, ⟨57, _⟩ => ⟨S300000x32, .f32⟩
  | .hbm, ⟨58, _⟩ => ⟨S300000x32, .f32⟩
  | .hbm, ⟨59, _⟩ => ⟨S300000x32, .f32⟩
  | .hbm, ⟨60, _⟩ => ⟨S_, .f32⟩
  | .hbm, ⟨61, _⟩ => ⟨S300000x32, .f32⟩
  | .hbm, ⟨62, _⟩ => ⟨S300000x32, .f32⟩
  | .hbm, ⟨63, _⟩ => ⟨S300000x32, .f32⟩
  | .hbm, ⟨64, _⟩ => ⟨S300000x32, .f32⟩
  | .hbm, ⟨65, _⟩ => ⟨S_, .f32⟩
  | .hbm, ⟨66, _⟩ => ⟨S300000x32, .f32⟩
  | .hbm, ⟨67, _⟩ => ⟨S300000x32, .f32⟩
  | .hbm, ⟨68, _⟩ => ⟨S300000x3, .f32⟩
  | .hbm, ⟨69, _⟩ => ⟨S1x3, .f32⟩
  | .hbm, ⟨70, _⟩ => ⟨S300000x3, .f32⟩
  | .hbm, ⟨71, _⟩ => ⟨S300000x3, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  concatenates_S300000x256_S300000x32_S300000x288_d1 : Shape.Concatenates [S300000x256, S300000x32] S300000x288 1
  slices_S2x288x32_S1x288x32_0_0_0 : S2x288x32.Slices ![0, 0, 0] S1x288x32
  shapeCasts_S1x288x32_S288x32 : S1x288x32.ShapeCasts S288x32
  slices_S2x288x32_S1x288x32_1_0_0 : S2x288x32.Slices ![1, 0, 0] S1x288x32
  bcast_S32_S1x32_1 : S32.BroadcastsInDim S1x32 (![1] : Fin 1 → Fin S1x32.rank)
  bcast_S1x32_S300000x32_0_1 : S1x32.BroadcastsInDim S300000x32 (![0, 1] : Fin 2 → Fin S300000x32.rank)
  bcast_S_S300000x32 : S_.BroadcastsInDim S300000x32 (![] : Fin 0 → Fin S300000x32.rank)
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  dot_S300000x288_S288x32_S300000x32_1_0_0_1_n_n_wf : DotDims.WF S300000x288 S288x32 S300000x32 [1] [0] [0] [1] [] []
  dot_S300000x32_S32x3_S300000x3_1_0_0_1_n_n_wf : DotDims.WF S300000x32 S32x3 S300000x3 [1] [0] [0] [1] [] []

variable [Facts₀]

def dot_S300000x288_S288x32_S300000x32_1_0_0_1_n_n : DotDims S300000x288 S288x32 S300000x32 where
  lhsContracting := [1]
  rhsContracting := [0]
  lhsNonContracting := [0]
  rhsNonContracting := [1]
  lhsBatch := []
  rhsBatch := []
  wf := dot_S300000x288_S288x32_S300000x32_1_0_0_1_n_n_wf
def dot_S300000x32_S32x3_S300000x3_1_0_0_1_n_n : DotDims S300000x32 S32x3 S300000x3 where
  lhsContracting := [1]
  rhsContracting := [0]
  lhsNonContracting := [0]
  rhsNonContracting := [1]
  lhsBatch := []
  rhsBatch := []
  wf := dot_S300000x32_S32x3_S300000x3_1_0_0_1_n_n_wf

class Facts : Prop extends Facts₀ where

variable [Facts]
-- ==== Proof.CellSpec.lean ====
/-
  The gated recurrent cell that both programs compute, written once as functions of the argument arrays, index by
  index, on the extended reals.

  With one diffusion step the convolution never reaches the graph, so each gate is a dense layer over the row
  `[x_n, g_n]` of width 256 + 32 against the SUM of the two directions' weights `W 0 + W 1`, plus a bias:
      pre n j = Σ_{k<256} x n k · (W 0 + W 1) k j  +  Σ_{k<32} g n k · (W 0 + W 1) (256 + k) j  +  b j.
  The update gate `Z` and the reset gate `R` are the logistic function of that with `g = h`; the candidate state is
  `tanh` of it with `g = R ⊙ h`; the new state is `Z ⊙ h + (1 − Z) ⊙ candidate`, and the readout is a dense layer
  32 → 3 over `max (new state) 0`.

  The contraction over the concatenated row is stated already split into its `x` part and its `g` part. That split
  (`sum_split`) is only a regrouping of a finite sum in a commutative monoid, so it holds on the extended reals at
  every value, the infinities included: nothing here needs the inputs to be finite.
-/
import Idealize.ShloMosaic.PureOps.Ideal
import Idealize.ShloMosaic.Lib.ValueIdx
import Mathlib.Algebra.BigOperators.Fin

noncomputable section

open scoped BigOperators

namespace Cert.Cell

open Idealize.ShloMosaic Idealize.ShloMosaic.ValueIdx

/-- The f32 pattern of 1.0 denotes the extended real `1`. -/
theorem one_word : Ideal.ofBits .f32 0x3F800000#32 = (1 : EReal) := by
  simp [Ideal.ofBits, Ideal.ieee, -EReal.coe_mul]; norm_num

/-- Column `k` of the `x` part of a concatenated row `[x, g]`. -/
def lo (k : Fin 256) : Fin 288 := ⟨k.val, by omega⟩

/-- Column `k` of the `g` part of a concatenated row `[x, g]`: it sits `256` further on. -/
def hi (k : Fin 32) : Fin 288 := ⟨256 + k.val, by omega⟩

/-- A sum over the 288 columns of a concatenated row is the sum over its first 256 plus the sum over its last 32. -/
theorem sum_split {M : Type*} [AddCommMonoid M] (f : Fin 288 → M) :
    ∑ k : Fin 288, f k = ∑ k : Fin 256, f (lo k) + ∑ k : Fin 32, f (hi k) :=
  Fin.sum_univ_add (a := 256) (b := 32) f

section Cell

variable (x : FVec Ideal ⟨2, ![300000, 256]⟩ .f32) (h : FVec Ideal ⟨2, ![300000, 32]⟩ .f32)

/-- The two diffusion directions' weights, summed: entry `(k, j)` of `W 0 + W 1`. -/
def wsum (W : FVec Ideal ⟨3, ![2, 288, 32]⟩ .f32) (k : Fin 288) (j : Fin 32) : EReal :=
  W (ix3 0 k j) + W (ix3 1 k j)

/-- A gate before its nonlinearity, at node `n` and hidden unit `j`: the row `[x n, g n]` against column `j` of the
    summed weights, plus the bias. -/
def pre (g : Fin 300000 → Fin 32 → EReal) (W : FVec Ideal ⟨3, ![2, 288, 32]⟩ .f32) (b : FVec Ideal ⟨1, ![32]⟩ .f32)
    (n : Fin 300000) (j : Fin 32) : EReal :=
  (∑ k : Fin 256, x (ix2 n k) * wsum W (lo k) j + ∑ k : Fin 32, g n k * wsum W (hi k) j) + b (ix1 j)

/-- A sigmoid gate (the update gate with `Wz, bz`; the reset gate with `Wr, br`): the logistic function of the dense
    layer over `[x, h]`. -/
def gate (W : FVec Ideal ⟨3, ![2, 288, 32]⟩ .f32) (b : FVec Ideal ⟨1, ![32]⟩ .f32) (n : Fin 300000) (j : Fin 32) : EReal :=
  Ideal.logistic (pre x (fun n k => h (ix2 n k)) W b n j)

/-- The candidate state: `tanh` of the dense layer over `[x, R ⊙ h]`. -/
def cand (Wr : FVec Ideal ⟨3, ![2, 288, 32]⟩ .f32) (br : FVec Ideal ⟨1, ![32]⟩ .f32)
    (Wh : FVec Ideal ⟨3, ![2, 288, 32]⟩ .f32) (bh : FVec Ideal ⟨1, ![32]⟩ .f32) (n : Fin 300000) (j : Fin 32) : EReal :=
  Ideal.tanh (pre x (fun n k => gate x h Wr br n k * h (ix2 n k)) Wh bh n j)

/-- The new hidden state at node `n`, unit `j`: `Z · h + (1 − Z) · candidate`. -/
def state (Wz : FVec Ideal ⟨3, ![2, 288, 32]⟩ .f32) (bz : FVec Ideal ⟨1, ![32]⟩ .f32)
    (Wr : FVec Ideal ⟨3, ![2, 288, 32]⟩ .f32) (br : FVec Ideal ⟨1, ![32]⟩ .f32)
    (Wh : FVec Ideal ⟨3, ![2, 288, 32]⟩ .f32) (bh : FVec Ideal ⟨1, ![32]⟩ .f32) (n : Fin 300000) (j : Fin 32) : EReal :=
  gate x h Wz bz n j * h (ix2 n j)
    + (Ideal.ofBits .f32 0x3F800000#32 - gate x h Wz bz n j) * cand x h Wr br Wh bh n j

/-- The new hidden state as an array. -/
def newH (Wz : FVec Ideal ⟨3, ![2, 288, 32]⟩ .f32) (bz : FVec Ideal ⟨1, ![32]⟩ .f32)
    (Wr : FVec Ideal ⟨3, ![2, 288, 32]⟩ .f32) (br : FVec Ideal ⟨1, ![32]⟩ .f32)
    (Wh : FVec Ideal ⟨3, ![2, 288, 32]⟩ .f32) (bh : FVec Ideal ⟨1, ![32]⟩ .f32) : FVec Ideal ⟨2, ![300000, 32]⟩ .f32 :=
  fun i => state x h Wz bz Wr br Wh bh (i 0) (i 1)

/-- The readout at node `n`, output `o`: the rectified new state against column `o` of `Wl`, plus the bias. -/
def readAt (Wz : FVec Ideal ⟨3, ![2, 288, 32]⟩ .f32) (bz : FVec Ideal ⟨1, ![32]⟩ .f32)
    (Wr : FVec Ideal ⟨3, ![2, 288, 32]⟩ .f32) (br : FVec Ideal ⟨1, ![32]⟩ .f32)
    (Wh : FVec Ideal ⟨3, ![2, 288, 32]⟩ .f32) (bh : FVec Ideal ⟨1, ![32]⟩ .f32)
    (Wl : FVec Ideal ⟨2, ![32, 3]⟩ .f32) (bl : FVec Ideal ⟨1, ![3]⟩ .f32) (n : Fin 300000) (o : Fin 3) : EReal :=
  (∑ j : Fin 32, max (state x h Wz bz Wr br Wh bh n j) (Ideal.ofBits .f32 0x00000000#32) * Wl (ix2 j o)) + bl (ix1 o)

/-- The readout as an array. -/
def readout (Wz : FVec Ideal ⟨3, ![2, 288, 32]⟩ .f32) (bz : FVec Ideal ⟨1, ![32]⟩ .f32)
    (Wr : FVec Ideal ⟨3, ![2, 288, 32]⟩ .f32) (br : FVec Ideal ⟨1, ![32]⟩ .f32)
    (Wh : FVec Ideal ⟨3, ![2, 288, 32]⟩ .f32) (bh : FVec Ideal ⟨1, ![32]⟩ .f32)
    (Wl : FVec Ideal ⟨2, ![32, 3]⟩ .f32) (bl : FVec Ideal ⟨1, ![3]⟩ .f32) : FVec Ideal ⟨2, ![300000, 3]⟩ .f32 :=
  fun i => readAt x h Wz bz Wr br Wh bh Wl bl (i 0) (i 1)

end Cell

end Cert.Cell

end
-- ==== Proof.RefSide.lean ====
/-
  The reference program computes the cell of `Cert.Cell`.

  The reference contracts the concatenated row `[x_n, g_n]` (288 columns) against `W 0 + W 1` in one product. Read at
  an index that product is a sum over the 288 columns; its first 256 terms read `x`, its last 32 read `g` (which is
  `h` for the two sigmoid gates and `R ⊙ h` for the candidate), so it is the cell's two-part contraction. The summed
  weight at `(k, j)` is `W (0, k, j) + W (1, k, j)`: each direction is a slice of the leading axis reshaped to a
  matrix, which moves no entry. The reference spells the logistic function out as `1 / (1 + exp (−a))` with the
  pattern of 1.0 for both ones; that pattern is the number one, so this is the logistic function everywhere on the
  extended reals. The remaining operations are pointwise and are the cell's, in the same order.
-/
import proofs.«168846_j50465865728448_1_alg».proof.Proof.Gen.ReferenceIdeal.Read
import proofs.«168846_j50465865728448_1_alg».proof.Proof.CellSpec

noncomputable section

open scoped BigOperators

namespace Cert.Cell.Ref

open Cert.ReferenceIdeal Cert.ReferenceIdeal.Gen Cert.ReferenceIdeal.Read
open Idealize.ShloMosaic Idealize.ShloMosaic.TcCoe Idealize.ShloMosaic.ValueIdx Idealize.ShloMosaic.StableHlo

/-- Entry `(k, j)` of the summed weights: the two leading slices of `W`, each reshaped to a matrix, added. -/
theorem wsum_at (W : (⟨S2x288x32, .f32⟩ : BufTy).Contents (Elt Ideal)) (k : Fin 288) (j : Fin 32) :
    val_main_v5 (F := Ideal) W (ix2 k j) = Cell.wsum W k j := by
  have hk : k.val < 288 := k.isLt
  have hj : j.val < 32 := j.isLt
  rw [val_main_v5_apply, val_main_v2_apply, val_main_v1_apply, val_main_v4_apply, val_main_v3_apply]
  have e0 : idx_main_v1 (idx_main_v2 (ix2 k j)) = ix3 (0 : Fin 2) k j := funext fun a => Fin.ext (by
    match a with
    | ⟨0, _⟩ => rfl
    | ⟨1, _⟩ => show (k.val * 32 + j.val) / 32 % 288 = k.val; omega
    | ⟨2, _⟩ => show (k.val * 32 + j.val) % 32 = j.val; omega)
  have e1 : idx_main_v3 (idx_main_v4 (ix2 k j)) = ix3 (1 : Fin 2) k j := funext fun a => Fin.ext (by
    match a with
    | ⟨0, _⟩ => rfl
    | ⟨1, _⟩ => show (k.val * 32 + j.val) / 32 % 288 = k.val; omega
    | ⟨2, _⟩ => show (k.val * 32 + j.val) % 32 = j.val; omega)
  rw [e0, e1]
  rfl

/-- A column of the `x` part of the concatenated row reads `x`. -/
theorem row_lo (x : (⟨S300000x256, .f32⟩ : BufTy).Contents (Elt Ideal)) (g : (⟨S300000x32, .f32⟩ : BufTy).Contents (Elt Ideal))
    (n : Fin 300000) (k : Fin 256) :
    val_main_v0 (F := Ideal) x g (ix2 n (Cell.lo k)) = x (ix2 n k) := by
  unfold val_main_v0
  exact concatenate_pair_apply_left 1 x g concatenates_S300000x256_S300000x32_S300000x288_d1 (ix2 n (Cell.lo k)) rfl (ix2 n k)
    (fun b => match b with
      | ⟨0, _⟩ => rfl
      | ⟨1, _⟩ => rfl)

/-- A column of the second part of the concatenated row reads the second piece, 256 columns back. -/
theorem row_hi (x : (⟨S300000x256, .f32⟩ : BufTy).Contents (Elt Ideal)) (g : (⟨S300000x32, .f32⟩ : BufTy).Contents (Elt Ideal))
    (n : Fin 300000) (k : Fin 32) :
    val_main_v0 (F := Ideal) x g (ix2 n (Cell.hi k)) = g (ix2 n k) := by
  unfold val_main_v0
  exact concatenate_pair_apply_right 1 x g concatenates_S300000x256_S300000x32_S300000x288_d1 (ix2 n (Cell.hi k)) rfl rfl (ix2 n k)
    (fun b hb => match b, hb with
      | ⟨0, _⟩, _ => rfl
      | ⟨1, _⟩, hb => absurd rfl hb)
    (by show k.val + 256 = 256 + k.val; omega)

/-- The product of the concatenated row with the summed weights, at node `n` and unit `j`, is the `x` part's
    contraction plus the second piece's. -/
theorem dense_at (x : (⟨S300000x256, .f32⟩ : BufTy).Contents (Elt Ideal)) (g : (⟨S300000x32, .f32⟩ : BufTy).Contents (Elt Ideal))
    (W : (⟨S2x288x32, .f32⟩ : BufTy).Contents (Elt Ideal)) (n : Fin 300000) (j : Fin 32) :
    val_main_v6 (F := Ideal) x g W (ix2 n j)
      = ∑ k : Fin 256, x (ix2 n k) * Cell.wsum W (Cell.lo k) j + ∑ k : Fin 32, g (ix2 n k) * Cell.wsum W (Cell.hi k) j := by
  rw [val_main_v6_apply, Cell.sum_split]
  have el : ∀ k : Fin 288, lidx_main_v6 (ix2 n j) k = ix2 n k := fun k => funext fun a => Fin.ext (by
    match a with
    | ⟨0, _⟩ => rfl
    | ⟨1, _⟩ => rfl)
  have er : ∀ k : Fin 288, ridx_main_v6 (ix2 n j) k = ix2 k j := fun k => funext fun a => Fin.ext (by
    match a with
    | ⟨0, _⟩ => rfl
    | ⟨1, _⟩ => rfl)
  congr 1
  · exact Finset.sum_congr rfl fun k _ => by rw [el, er, wsum_at, row_lo]
  · exact Finset.sum_congr rfl fun k _ => by rw [el, er, wsum_at, row_hi]

/-- A gate before its nonlinearity, for any second piece `g` whose entries are `γ`. -/
theorem pre_at (x : (⟨S300000x256, .f32⟩ : BufTy).Contents (Elt Ideal)) (g : (⟨S300000x32, .f32⟩ : BufTy).Contents (Elt Ideal))
    (W : (⟨S2x288x32, .f32⟩ : BufTy).Contents (Elt Ideal)) (b : (⟨S32, .f32⟩ : BufTy).Contents (Elt Ideal))
    (γ : Fin 300000 → Fin 32 → EReal) (hg : ∀ n k, g (ix2 n k) = γ n k) (n : Fin 300000) (j : Fin 32) :
    val_main_v9 (F := Ideal) x g W b (ix2 n j) = Cell.pre x γ W b n j := by
  rw [val_main_v9_apply, dense_at, val_main_v8_apply, val_main_v7_apply]
  have eb : idx_main_v7 (idx_main_v8 (ix2 n j)) = ix1 j := funext fun a => Fin.ext (by
    match a with
    | ⟨0, _⟩ => rfl)
  rw [eb]
  unfold Cell.pre
  simp only [hg]
  rfl

/-- A sigmoid gate: `1 / (1 + exp (−pre))` with the pattern of 1.0 for the ones is the logistic function of `pre`. -/
theorem gate_at (x : (⟨S300000x256, .f32⟩ : BufTy).Contents (Elt Ideal)) (h : (⟨S300000x32, .f32⟩ : BufTy).Contents (Elt Ideal))
    (W : (⟨S2x288x32, .f32⟩ : BufTy).Contents (Elt Ideal)) (b : (⟨S32, .f32⟩ : BufTy).Contents (Elt Ideal))
    (n : Fin 300000) (j : Fin 32) :
    val_main_v15 (F := Ideal) x h W b (ix2 n j) = Cell.gate x h W b n j := by
  rw [val_main_v15_apply, val_main_v14_apply, val_main_cst_0_apply, val_main_v13_apply, val_main_v12_apply, val_main_cst_apply,
    val_main_v11_apply, val_main_v10_apply, pre_at x h W b (fun n k => h (ix2 n k)) (fun _ _ => rfl)]
  show Ideal.div (Ideal.ofBits .f32 0x3F800000#32) (Ideal.ofBits .f32 0x3F800000#32 + Ideal.exp (-(Cell.pre x (fun n k => h (ix2 n k)) W b n j))) = _
  rw [Cell.one_word]
  rfl

/-- The reset gate applied to the old state: the second piece of the candidate's row. -/
theorem reset_at (x : (⟨S300000x256, .f32⟩ : BufTy).Contents (Elt Ideal)) (h : (⟨S300000x32, .f32⟩ : BufTy).Contents (Elt Ideal))
    (Wr : (⟨S2x288x32, .f32⟩ : BufTy).Contents (Elt Ideal)) (br : (⟨S32, .f32⟩ : BufTy).Contents (Elt Ideal))
    (n : Fin 300000) (k : Fin 32) :
    val_main_v31 (F := Ideal) x h Wr br (ix2 n k) = Cell.gate x h Wr br n k * h (ix2 n k) := by
  show val_main_v15 (F := Ideal) x h Wr br (ix2 n k) * h (ix2 n k) = _
  rw [gate_at]

/-- The candidate state. -/
theorem cand_at (x : (⟨S300000x256, .f32⟩ : BufTy).Contents (Elt Ideal)) (h : (⟨S300000x32, .f32⟩ : BufTy).Contents (Elt Ideal))
    (Wr : (⟨S2x288x32, .f32⟩ : BufTy).Contents (Elt Ideal)) (br : (⟨S32, .f32⟩ : BufTy).Contents (Elt Ideal))
    (Wh : (⟨S2x288x32, .f32⟩ : BufTy).Contents (Elt Ideal)) (bh : (⟨S32, .f32⟩ : BufTy).Contents (Elt Ideal))
    (n : Fin 300000) (j : Fin 32) :
    val_main_v42 (F := Ideal) x h Wr br Wh bh (ix2 n j) = Cell.cand x h Wr br Wh bh n j := by
  show Ideal.tanh (val_main_v9 (F := Ideal) x (val_main_v31 (F := Ideal) x h Wr br) Wh bh (ix2 n j)) = _
  rw [pre_at x (val_main_v31 (F := Ideal) x h Wr br) Wh bh (fun n k => Cell.gate x h Wr br n k * h (ix2 n k))
    (fun n k => reset_at x h Wr br n k)]
  rfl

/-- The new hidden state at node `n`, unit `j`. -/
theorem state_at (x : (⟨S300000x256, .f32⟩ : BufTy).Contents (Elt Ideal)) (h : (⟨S300000x32, .f32⟩ : BufTy).Contents (Elt Ideal))
    (Wz : (⟨S2x288x32, .f32⟩ : BufTy).Contents (Elt Ideal)) (bz : (⟨S32, .f32⟩ : BufTy).Contents (Elt Ideal))
    (Wr : (⟨S2x288x32, .f32⟩ : BufTy).Contents (Elt Ideal)) (br : (⟨S32, .f32⟩ : BufTy).Contents (Elt Ideal))
    (Wh : (⟨S2x288x32, .f32⟩ : BufTy).Contents (Elt Ideal)) (bh : (⟨S32, .f32⟩ : BufTy).Contents (Elt Ideal))
    (n : Fin 300000) (j : Fin 32) :
    val_main_v47 (F := Ideal) x h Wz bz Wr br Wh bh (ix2 n j) = Cell.state x h Wz bz Wr br Wh bh n j := by
  rw [val_main_v47_apply, val_main_v43_apply, val_main_v46_apply, val_main_v45_apply, val_main_v44_apply, val_main_cst_3_apply,
    cand_at, gate_at]
  rfl

/-- The reference's second result is the cell's new hidden state. -/
theorem newH_eq (x : (⟨S300000x256, .f32⟩ : BufTy).Contents (Elt Ideal)) (h : (⟨S300000x32, .f32⟩ : BufTy).Contents (Elt Ideal))
    (Wz : (⟨S2x288x32, .f32⟩ : BufTy).Contents (Elt Ideal)) (bz : (⟨S32, .f32⟩ : BufTy).Contents (Elt Ideal))
    (Wr : (⟨S2x288x32, .f32⟩ : BufTy).Contents (Elt Ideal)) (br : (⟨S32, .f32⟩ : BufTy).Contents (Elt Ideal))
    (Wh : (⟨S2x288x32, .f32⟩ : BufTy).Contents (Elt Ideal)) (bh : (⟨S32, .f32⟩ : BufTy).Contents (Elt Ideal)) :
    val_main_v47 (F := Ideal) x h Wz bz Wr br Wh bh = Cell.newH x h Wz bz Wr br Wh bh := by
  funext i
  obtain ⟨n, j, rfl⟩ : ∃ (n : Fin 300000) (j : Fin 32), i = ix2 n j := ⟨i 0, i 1, eq_ix2 i⟩
  exact state_at x h Wz bz Wr br Wh bh n j

/-- The reference's first result is the cell's readout. -/
theorem readout_eq (x : (⟨S300000x256, .f32⟩ : BufTy).Contents (Elt Ideal)) (h : (⟨S300000x32, .f32⟩ : BufTy).Contents (Elt Ideal))
    (Wz : (⟨S2x288x32, .f32⟩ : BufTy).Contents (Elt Ideal)) (bz : (⟨S32, .f32⟩ : BufTy).Contents (Elt Ideal))
    (Wr : (⟨S2x288x32, .f32⟩ : BufTy).Contents (Elt Ideal)) (br : (⟨S32, .f32⟩ : BufTy).Contents (Elt Ideal))
    (Wh : (⟨S2x288x32, .f32⟩ : BufTy).Contents (Elt Ideal)) (bh : (⟨S32, .f32⟩ : BufTy).Contents (Elt Ideal))
    (Wl : (⟨S32x3, .f32⟩ : BufTy).Contents (Elt Ideal)) (bl : (⟨S3, .f32⟩ : BufTy).Contents (Elt Ideal)) :
    val_main_v52 (F := Ideal) x h Wz bz Wr br Wh bh Wl bl = Cell.readout x h Wz bz Wr br Wh bh Wl bl := by
  funext i
  obtain ⟨n, o, rfl⟩ : ∃ (n : Fin 300000) (o : Fin 3), i = ix2 n o := ⟨i 0, i 1, eq_ix2 i⟩
  rw [val_main_v52_apply, val_main_v49_apply, val_main_v51_apply, val_main_v50_apply]
  have eb : idx_main_v50 (idx_main_v51 (ix2 n o)) = ix1 o := funext fun a => Fin.ext (by
    match a with
    | ⟨0, _⟩ => rfl)
  have el : ∀ k : Fin 32, lidx_main_v49 (ix2 n o) k = ix2 n k := fun k => funext fun a => Fin.ext (by
    match a with
    | ⟨0, _⟩ => rfl
    | ⟨1, _⟩ => rfl)
  have er : ∀ k : Fin 32, ridx_main_v49 (ix2 n o) k = ix2 k o := fun k => funext fun a => Fin.ext (by
    match a with
    | ⟨0, _⟩ => rfl
    | ⟨1, _⟩ => rfl)
  rw [eb]
  show (∑ k : Fin 32, val_main_v48 (F := Ideal) x h Wz bz Wr br Wh bh (lidx_main_v49 (ix2 n o) k) * Wl (ridx_main_v49 (ix2 n o) k)) + bl (ix1 o)
    = (∑ j : Fin 32, max (Cell.state x h Wz bz Wr br Wh bh n j) (Ideal.ofBits .f32 0x00000000#32) * Wl (ix2 j o)) + bl (ix1 o)
  congr 1
  refine Finset.sum_congr rfl fun k _ => ?_
  rw [el, er, val_main_v48_apply, val_main_call0_v0_apply, val_main_call0_cst_apply, state_at]
  rfl

end Cert.Cell.Ref

end
-- ==== Proof.KernelHost.lean ====
/-
  What the kernel's windows find in the arrays that the host operations before the region wrote.

  Before the one region the host adds the two directions of each gate's weights (each direction a slice of the
  leading axis reshaped to a 288 × 32 matrix, which moves no entry), cuts the sum into its first 256 rows (the rows
  that meet `x`) and its last 32 rows (the rows that meet the hidden state), and reshapes each bias to a one-row
  matrix. So the staged weight blocks hold `W (0, k, j) + W (1, k, j)` at the cell's column `k` of the
  concatenated row (`k` itself for the first cut, `256 + k` for the second), and a staged bias row holds the bias.
-/
import proofs.«168846_j50465865728448_1_alg».proof.Proof.Gen.KernelIdeal.Frame
import proofs.«168846_j50465865728448_1_alg».proof.Proof.CellSpec
import Idealize.ShloMosaic.Lib.StableHlo.Run
import Idealize.ShloMosaic.Lib.Pipeline.Value
import Idealize.ShloMosaic.Lib.ValueIdx
import Idealize.ShloMosaic.PureOps.Ideal

noncomputable section

namespace Cert.Cell.Ker

open Cert.KernelIdeal Cert.KernelIdeal.Gen
open Idealize.ShloMosaic Idealize.ShloMosaic.TcCoe Idealize.SL.Sem Idealize.ShloMosaic.StableHlo Idealize.ShloMosaic.ValueIdx

/-- The summed weights as the host builds them: the two leading slices of `W`, each reshaped to a matrix, added. -/
def wsumArr (W : FVec Ideal S2x288x32 .f32) : FVec Ideal S288x32 .f32 :=
  addf (shapeCast S288x32 (extractStridedSlice S1x288x32 ![0, 0, 0] W slices_S2x288x32_S1x288x32_0_0_0) shapeCasts_S1x288x32_S288x32)
    (shapeCast S288x32 (extractStridedSlice S1x288x32 ![1, 0, 0] W slices_S2x288x32_S1x288x32_1_0_0) shapeCasts_S1x288x32_S288x32)

/-- Its entry `(k, j)` is `W (0, k, j) + W (1, k, j)`. -/
theorem wsumArr_at (W : FVec Ideal S2x288x32 .f32) (k : Fin 288) (j : Fin 32) : wsumArr W (ix2 k j) = Cell.wsum W k j := by
  have hk : k.val < 288 := k.isLt
  have hj : j.val < 32 := j.isLt
  show shapeCast S288x32 (extractStridedSlice S1x288x32 ![0, 0, 0] W slices_S2x288x32_S1x288x32_0_0_0) shapeCasts_S1x288x32_S288x32 (ix2 k j)
      + shapeCast S288x32 (extractStridedSlice S1x288x32 ![1, 0, 0] W slices_S2x288x32_S1x288x32_1_0_0) shapeCasts_S1x288x32_S288x32 (ix2 k j)
    = W (ix3 (0 : Fin 2) k j) + W (ix3 (1 : Fin 2) k j)
  congr 1
  · refine (shapeCast_apply _ shapeCasts_S1x288x32_S288x32 (ix2 k j) (ix3 (0 : Fin 1) k j)
      (by rewrite [Shape.rowMajor_val_three, Shape.rowMajor_val_two]; show (0 * 288 + k.val) * 32 + j.val = k.val * 32 + j.val; omega)).trans ?_
    exact extractStridedSlice_apply ![0, 0, 0] W slices_S2x288x32_S1x288x32_0_0_0 (ix3 (0 : Fin 1) k j) (ix3 (0 : Fin 2) k j)
      (fun a => match a with
        | ⟨0, _⟩ => by show 0 = 0 + 0; rfl
        | ⟨1, _⟩ => by show k.val = 0 + k.val; omega
        | ⟨2, _⟩ => by show j.val = 0 + j.val; omega)
  · refine (shapeCast_apply _ shapeCasts_S1x288x32_S288x32 (ix2 k j) (ix3 (0 : Fin 1) k j)
      (by rewrite [Shape.rowMajor_val_three, Shape.rowMajor_val_two]; show (0 * 288 + k.val) * 32 + j.val = k.val * 32 + j.val; omega)).trans ?_
    exact extractStridedSlice_apply ![1, 0, 0] W slices_S2x288x32_S1x288x32_1_0_0 (ix3 (0 : Fin 1) k j) (ix3 (1 : Fin 2) k j)
      (fun a => match a with
        | ⟨0, _⟩ => by show 1 = 1 + 0; rfl
        | ⟨1, _⟩ => by show k.val = 0 + k.val; omega
        | ⟨2, _⟩ => by show j.val = 0 + j.val; omega)

/-- The first 256 rows of the summed weights: the rows that meet `x`. -/
theorem lo_at (W : FVec Ideal S2x288x32 .f32) (k : Fin 256) (j : Fin 32) :
    extractStridedSlice S256x32 ![0, 0] (wsumArr W) slices_S288x32_S256x32_0_0 (ix2 k j) = Cell.wsum W (Cell.lo k) j :=
  (extractStridedSlice_apply ![0, 0] (wsumArr W) slices_S288x32_S256x32_0_0 (ix2 k j) (ix2 (Cell.lo k) j)
    (fun a => match a with
      | ⟨0, _⟩ => by show k.val = 0 + k.val; omega
      | ⟨1, _⟩ => by show j.val = 0 + j.val; omega)).trans (wsumArr_at W (Cell.lo k) j)

/-- The last 32 rows of the summed weights: the rows that meet the hidden state. -/
theorem hi_at (W : FVec Ideal S2x288x32 .f32) (k : Fin 32) (j : Fin 32) :
    extractStridedSlice S32x32 ![256, 0] (wsumArr W) slices_S288x32_S32x32_256_0 (ix2 k j) = Cell.wsum W (Cell.hi k) j :=
  (extractStridedSlice_apply ![256, 0] (wsumArr W) slices_S288x32_S32x32_256_0 (ix2 k j) (ix2 (Cell.hi k) j)
    (fun a => match a with
      | ⟨0, _⟩ => by show 256 + k.val = 256 + k.val; rfl
      | ⟨1, _⟩ => by show j.val = 0 + j.val; omega)).trans (wsumArr_at W (Cell.hi k) j)

/-- A gate's bias reshaped to one row. -/
theorem bias_at (b : FVec Ideal S32 .f32) (j : Fin 32) : shapeCast S1x32 b shapeCasts_S32_S1x32 (ix2 (0 : Fin 1) j) = b (ix1 j) :=
  shapeCast_apply b shapeCasts_S32_S1x32 (ix2 (0 : Fin 1) j) (ix1 j)
    (by rewrite [Shape.rowMajor_val_one, Shape.rowMajor_val_two]; show j.val = 0 * 32 + j.val; omega)

/-- The readout's bias reshaped to one row. -/
theorem bias3_at (b : FVec Ideal S3 .f32) (o : Fin 3) : shapeCast S1x3 b shapeCasts_S3_S1x3 (ix2 (0 : Fin 1) o) = b (ix1 o) :=
  shapeCast_apply b shapeCasts_S3_S1x3 (ix2 (0 : Fin 1) o) (ix1 o)
    (by rewrite [Shape.rowMajor_val_one, Shape.rowMajor_val_two]; show o.val = 0 * 3 + o.val; omega)

/-! ## The arrays at region entry -/

variable (m : (ℓ : Loc nD τ sig) → Buf (Elt Ideal) ℓ)

theorem V_v15 (c : Dev nD) : (V m c main_v15 : S256x32.Idx → EReal)
    = extractStridedSlice S256x32 ![0, 0] (wsumArr (m ((c : Thread nD τ).loc main_arg4))) slices_S288x32_S256x32_0_0 := by
  dsimp only [V, hostOps0]; after_results; rfl

theorem V_v16 (c : Dev nD) : (V m c main_v16 : S32x32.Idx → EReal)
    = extractStridedSlice S32x32 ![256, 0] (wsumArr (m ((c : Thread nD τ).loc main_arg4))) slices_S288x32_S32x32_256_0 := by
  dsimp only [V, hostOps0]; after_results; rfl

theorem V_v17 (c : Dev nD) : (V m c main_v17 : S256x32.Idx → EReal)
    = extractStridedSlice S256x32 ![0, 0] (wsumArr (m ((c : Thread nD τ).loc main_arg6))) slices_S288x32_S256x32_0_0 := by
  dsimp only [V, hostOps0]; after_results; rfl

theorem V_v18 (c : Dev nD) : (V m c main_v18 : S32x32.Idx → EReal)
    = extractStridedSlice S32x32 ![256, 0] (wsumArr (m ((c : Thread nD τ).loc main_arg6))) slices_S288x32_S32x32_256_0 := by
  dsimp only [V, hostOps0]; after_results; rfl

theorem V_v19 (c : Dev nD) : (V m c main_v19 : S256x32.Idx → EReal)
    = extractStridedSlice S256x32 ![0, 0] (wsumArr (m ((c : Thread nD τ).loc main_arg8))) slices_S288x32_S256x32_0_0 := by
  dsimp only [V, hostOps0]; after_results; rfl

theorem V_v20 (c : Dev nD) : (V m c main_v20 : S32x32.Idx → EReal)
    = extractStridedSlice S32x32 ![256, 0] (wsumArr (m ((c : Thread nD τ).loc main_arg8))) slices_S288x32_S32x32_256_0 := by
  dsimp only [V, hostOps0]; after_results; rfl

theorem V_v21 (c : Dev nD) : (V m c main_v21 : S1x32.Idx → EReal)
    = shapeCast S1x32 (m ((c : Thread nD τ).loc main_arg5)) shapeCasts_S32_S1x32 := by
  dsimp only [V, hostOps0]; after_results; rfl

theorem V_v22 (c : Dev nD) : (V m c main_v22 : S1x32.Idx → EReal)
    = shapeCast S1x32 (m ((c : Thread nD τ).loc main_arg7)) shapeCasts_S32_S1x32 := by
  dsimp only [V, hostOps0]; after_results; rfl

theorem V_v23 (c : Dev nD) : (V m c main_v23 : S1x32.Idx → EReal)
    = shapeCast S1x32 (m ((c : Thread nD τ).loc main_arg9)) shapeCasts_S32_S1x32 := by
  dsimp only [V, hostOps0]; after_results; rfl

theorem V_v24 (c : Dev nD) : (V m c main_v24 : S1x3.Idx → EReal)
    = shapeCast S1x3 (m ((c : Thread nD τ).loc main_arg11)) shapeCasts_S3_S1x3 := by
  dsimp only [V, hostOps0]; after_results; rfl

end Cert.Cell.Ker

end
-- ==== Proof.KernelPay.lean ====
/-
  The kernel body's arithmetic, read at one entry of a block.

  The body works on a block of 2000 nodes. Its matrix products accumulate into zero, so read at row `p` and column
  `q` each is the plain sum over the contracted columns; the changes of float format are the identity on the extended
  reals; a bias row broadcast down the block reads the row. So a gate at `(p, q)` is the logistic function of
  `Σ_k x p k · wx k q + Σ_k h p k · wh k q + b q`, the reset gate's payload multiplies that by `h p q`, the new state
  is `Z · h + (1 − Z) · tanh (Σ_k x p k · wx k q + Σ_k (R ⊙ h) p k · wh k q + b q)`, and the readout is
  `Σ_j max (state p j) 0 · wl j o + bl o`.

  When the blocks are rows `row p` of the arrays `x` and `h` and the weight blocks are the two cuts of the summed
  weights, these are the cell's `state` and `readAt` at node `row p` (`state_rows`, `read_rows`).
-/
import proofs.«168846_j50465865728448_1_alg».proof.Proof.Gen.KernelIdeal.Skeleton
import proofs.«168846_j50465865728448_1_alg».proof.Proof.CellSpec
import Idealize.ShloMosaic.Lib.Pipeline.Value
import Idealize.ShloMosaic.Lib.ValueIdx
import Idealize.ShloMosaic.PureOps.Ideal.Laws

noncomputable section

open scoped BigOperators

namespace Cert.Cell.Ker

open Cert.KernelIdeal Cert.KernelIdeal.Gen
open Idealize.ShloMosaic Idealize.ShloMosaic.TcCoe Idealize.ShloMosaic.ValueIdx

/-! ## The three matrix products at an index -/

theorem xw_lhs_0 (i : S2000x32.Idx) (q : dot_S2000x256_S256x32_S2000x32_1_0_0_1_n_n.contr.Idx) :
    (dot_S2000x256_S256x32_S2000x32_1_0_0_1_n_n.lhsIdx i q 0).val = (i 0).val := by
  unfold DotDims.lhsIdx
  rw [dif_neg (show ¬(0 : Fin S2000x256.rank) ∈ dot_S2000x256_S256x32_S2000x32_1_0_0_1_n_n.lhsBatch by decide), dif_pos (show (0 : Fin S2000x256.rank) ∈ dot_S2000x256_S256x32_S2000x32_1_0_0_1_n_n.lhsNonContracting by decide)]
  rfl
theorem xw_lhs_1 (i : S2000x32.Idx) (q : dot_S2000x256_S256x32_S2000x32_1_0_0_1_n_n.contr.Idx) :
    (dot_S2000x256_S256x32_S2000x32_1_0_0_1_n_n.lhsIdx i q 1).val = (q ⟨0, by decide⟩).val :=
  dot_S2000x256_S256x32_S2000x32_1_0_0_1_n_n.lhsIdx_val_of_single rfl i q
theorem xw_rhs_0 (i : S2000x32.Idx) (q : dot_S2000x256_S256x32_S2000x32_1_0_0_1_n_n.contr.Idx) :
    (dot_S2000x256_S256x32_S2000x32_1_0_0_1_n_n.rhsIdx i q 0).val = (q ⟨0, by decide⟩).val :=
  dot_S2000x256_S256x32_S2000x32_1_0_0_1_n_n.rhsIdx_val_of_single rfl i q
theorem xw_rhs_1 (i : S2000x32.Idx) (q : dot_S2000x256_S256x32_S2000x32_1_0_0_1_n_n.contr.Idx) :
    (dot_S2000x256_S256x32_S2000x32_1_0_0_1_n_n.rhsIdx i q 1).val = (i 1).val := by
  unfold DotDims.rhsIdx
  rw [dif_neg (show ¬(1 : Fin S256x32.rank) ∈ dot_S2000x256_S256x32_S2000x32_1_0_0_1_n_n.rhsBatch by decide), dif_pos (show (1 : Fin S256x32.rank) ∈ dot_S2000x256_S256x32_S2000x32_1_0_0_1_n_n.rhsNonContracting by decide)]
  rfl

/-- Into a zero accumulator the product read at `(p, q)` is the sum over the 256 contracted columns. -/
theorem matmul_xw {φ₁ φ₂ : FTy} (a : FVec Ideal S2000x256 φ₁) (b : FVec Ideal S256x32 φ₂) (p : Fin 2000) (q : Fin 32) :
    matmul dot_S2000x256_S256x32_S2000x32_1_0_0_1_n_n none a b (constant (F := Ideal) S2000x32 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x32_S2000x32_1_0_0_1_n_n 256 rfl rfl).symm]
  refine Finset.sum_congr rfl fun k _ => ?_
  have hk := ValueIdx.contrEquiv1_symm_val dot_S2000x256_S256x32_S2000x32_1_0_0_1_n_n 256 rfl rfl k
  have el : dot_S2000x256_S256x32_S2000x32_1_0_0_1_n_n.lhsIdx (ix2 p q) ((ValueIdx.contrEquiv1 dot_S2000x256_S256x32_S2000x32_1_0_0_1_n_n 256 rfl rfl).symm k) = ix2 p k := funext fun a => Fin.ext (by
    match a with
    | ⟨0, _⟩ => exact xw_lhs_0 _ _
    | ⟨1, _⟩ => exact (xw_lhs_1 _ _).trans hk)
  have er : dot_S2000x256_S256x32_S2000x32_1_0_0_1_n_n.rhsIdx (ix2 p q) ((ValueIdx.contrEquiv1 dot_S2000x256_S256x32_S2000x32_1_0_0_1_n_n 256 rfl rfl).symm k) = ix2 k q := funext fun a => Fin.ext (by
    match a with
    | ⟨0, _⟩ => exact (xw_rhs_0 _ _).trans hk
    | ⟨1, _⟩ => exact xw_rhs_1 _ _)
  rw [el, er]

theorem hw_lhs_0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem hw_lhs_1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem hw_rhs_0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem hw_rhs_1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- Into a zero accumulator the product read at `(p, q)` is the sum over the 32 contracted columns. -/
theorem matmul_hw {φ₁ φ₂ : FTy} (a : FVec Ideal S2000x32 φ₁) (b : FVec Ideal S32x32 φ₂) (p : Fin 2000) (q : Fin 32) :
    matmul dot_S2000x32_S32x32_S2000x32_1_0_0_1_n_n none a b (constant (F := Ideal) S2000x32 .f32 0x00000000#32) (ix2 p q)
      = ∑ k : Fin 32, a (ix2 p k) * b (ix2 k q) := by
  simp only [matmul]
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact hw_lhs_0 _ _
    | ⟨1, _⟩ => exact (hw_lhs_1 _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (hw_rhs_0 _ _).trans hk
    | ⟨1, _⟩ => exact hw_rhs_1 _ _)
  rw [el, er]

theorem hl_lhs_0 (i : S2000x3.Idx) (q : dot_S2000x32_S32x3_S2000x3_1_0_0_1_n_n.contr.Idx) :
    (dot_S2000x32_S32x3_S2000x3_1_0_0_1_n_n.lhsIdx i q 0).val = (i 0).val := by
  unfold DotDims.lhsIdx
  rw [dif_neg (show ¬(0 : Fin S2000x32.rank) ∈ dot_S2000x32_S32x3_S2000x3_1_0_0_1_n_n.lhsBatch by decide), dif_pos (show (0 : Fin S2000x32.rank) ∈ dot_S2000x32_S32x3_S2000x3_1_0_0_1_n_n.lhsNonContracting by decide)]
  rfl
theorem hl_lhs_1 (i : S2000x3.Idx) (q : dot_S2000x32_S32x3_S2000x3_1_0_0_1_n_n.contr.Idx) :
    (dot_S2000x32_S32x3_S2000x3_1_0_0_1_n_n.lhsIdx i q 1).val = (q ⟨0, by decide⟩).val :=
  dot_S2000x32_S32x3_S2000x3_1_0_0_1_n_n.lhsIdx_val_of_single rfl i q
theorem hl_rhs_0 (i : S2000x3.Idx) (q : dot_S2000x32_S32x3_S2000x3_1_0_0_1_n_n.contr.Idx) :
    (dot_S2000x32_S32x3_S2000x3_1_0_0_1_n_n.rhsIdx i q 0).val = (q ⟨0, by decide⟩).val :=
  dot_S2000x32_S32x3_S2000x3_1_0_0_1_n_n.rhsIdx_val_of_single rfl i q
theorem hl_rhs_1 (i : S2000x3.Idx) (q : dot_S2000x32_S32x3_S2000x3_1_0_0_1_n_n.contr.Idx) :
    (dot_S2000x32_S32x3_S2000x3_1_0_0_1_n_n.rhsIdx i q 1).val = (i 1).val := by
  unfold DotDims.rhsIdx
  rw [dif_neg (show ¬(1 : Fin S32x3.rank) ∈ dot_S2000x32_S32x3_S2000x3_1_0_0_1_n_n.rhsBatch by decide), dif_pos (show (1 : Fin S32x3.rank) ∈ dot_S2000x32_S32x3_S2000x3_1_0_0_1_n_n.rhsNonContracting by decide)]
  rfl

/-- Into a zero accumulator the product read at `(p, q)` is the sum over the 32 contracted columns. -/
theorem matmul_hl {φ₁ φ₂ : FTy} (a : FVec Ideal S2000x32 φ₁) (b : FVec Ideal S32x3 φ₂) (p : Fin 2000) (q : Fin 3) :
    matmul dot_S2000x32_S32x3_S2000x3_1_0_0_1_n_n none a b (constant (F := Ideal) S2000x3 .f32 0x00000000#32) (ix2 p q)
      = ∑ k : Fin 32, a (ix2 p k) * b (ix2 k q) := by
  simp only [matmul]
  rw [Ideal.matmul_constant_zero_apply, ← Equiv.sum_comp (ValueIdx.contrEquiv1 dot_S2000x32_S32x3_S2000x3_1_0_0_1_n_n 32 rfl rfl).symm]
  refine Finset.sum_congr rfl fun k _ => ?_
  have hk := ValueIdx.contrEquiv1_symm_val dot_S2000x32_S32x3_S2000x3_1_0_0_1_n_n 32 rfl rfl k
  have el : dot_S2000x32_S32x3_S2000x3_1_0_0_1_n_n.lhsIdx (ix2 p q) ((ValueIdx.contrEquiv1 dot_S2000x32_S32x3_S2000x3_1_0_0_1_n_n 32 rfl rfl).symm k) = ix2 p k := funext fun a => Fin.ext (by
    match a with
    | ⟨0, _⟩ => exact hl_lhs_0 _ _
    | ⟨1, _⟩ => exact (hl_lhs_1 _ _).trans hk)
  have er : dot_S2000x32_S32x3_S2000x3_1_0_0_1_n_n.rhsIdx (ix2 p q) ((ValueIdx.contrEquiv1 dot_S2000x32_S32x3_S2000x3_1_0_0_1_n_n 32 rfl rfl).symm k) = ix2 k q := funext fun a => Fin.ext (by
    match a with
    | ⟨0, _⟩ => exact (hl_rhs_0 _ _).trans hk
    | ⟨1, _⟩ => exact hl_rhs_1 _ _)
  rw [el, er]

/-! ## A bias row broadcast down the block -/

theorem bcast_row (b : FVec Ideal S1x32 .f32) (p : Fin 2000) (q : Fin 32) :
    broadcastTo S2000x32 b broadcasts_S1x32_S2000x32 (ix2 p q) = b (ix2 (0 : Fin 1) q) :=
  broadcastTo_apply b broadcasts_S1x32_S2000x32 (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])

theorem bcast_row3 (b : FVec Ideal S1x3 .f32) (p : Fin 2000) (o : Fin 3) :
    broadcastTo S2000x3 b broadcasts_S1x3_S2000x3 (ix2 p o) = b (ix2 (0 : Fin 1) o) :=
  broadcastTo_apply b broadcasts_S1x3_S2000x3 (ix2 p o) (ix2 (0 : Fin 1) o) (fun a => match a with
    | ⟨0, _⟩ => by show 0 = if (1 : Nat) = 1 then 0 else p.val; rw [if_pos rfl]
    | ⟨1, _⟩ => by show o.val = if (3 : Nat) = 1 then 0 else o.val; rw [if_neg (by decide)])

/-! ## The payloads at an index -/

/-- A sigmoid gate of the block at `(p, q)`. -/
theorem gate_blk (x0 : Vec Ideal S2000x256 .f32) (x1 : Vec Ideal S2000x32 .f32) (w : Vec Ideal S256x32 .f32) (u : Vec Ideal S32x32 .f32)
    (b : Vec Ideal S1x32 .f32) (p : Fin 2000) (q : Fin 32) :
    k0_pay5 x0 x1 w u b (ix2 p q)
      = Ideal.logistic ((∑ k : Fin 256, x0 (ix2 p k) * w (ix2 k q) + ∑ k : Fin 32, x1 (ix2 p k) * u (ix2 k q)) + b (ix2 (0 : Fin 1) q)) := by
  show Ideal.logistic ((matmul dot_S2000x256_S256x32_S2000x32_1_0_0_1_n_n none (truncf .bf16 x0 bitsLt_bf16_f32) (truncf .bf16 (shapeCast S256x32 w shapeCasts_S256x32_S256x32) bitsLt_bf16_f32) (constant (F := Ideal) S2000x32 .f32 0x00000000#32) (ix2 p q)
        + matmul dot_S2000x32_S32x32_S2000x32_1_0_0_1_n_n none (truncf .bf16 x1 bitsLt_bf16_f32) (truncf .bf16 (shapeCast S32x32 u shapeCasts_S32x32_S32x32) bitsLt_bf16_f32) (constant (F := Ideal) S2000x32 .f32 0x00000000#32) (ix2 p q))
      + broadcastTo S2000x32 (shapeCast S1x32 b shapeCasts_S1x32_S1x32) broadcasts_S1x32_S2000x32 (ix2 p q)) = _
  rw [matmul_xw, matmul_hw, shapeCast_self, shapeCast_self, shapeCast_self, bcast_row]
  rfl

/-- The reset gate's payload is the gate times the old state. -/
theorem reset_blk (x0 : Vec Ideal S2000x256 .f32) (x1 : Vec Ideal S2000x32 .f32) (w : Vec Ideal S256x32 .f32) (u : Vec Ideal S32x32 .f32)
    (b : Vec Ideal S1x32 .f32) (p : Fin 2000) (q : Fin 32) :
    k0_pay6 x0 x1 w u b (ix2 p q) = k0_pay5 x0 x1 w u b (ix2 p q) * x1 (ix2 p q) := rfl

/-- The change of float format of `x`'s block reads `x`'s block. -/
theorem xcast_blk (x0 : Vec Ideal S2000x256 .f32) (i : S2000x256.Idx) : k0_pay3 x0 i = x0 i := rfl

/-- The candidate's `x`-side weight block, cast in shape and format, reads the block. -/
theorem wcast_blk (w : Vec Ideal S256x32 .f32) (i : S256x32.Idx) : k0_pay7 w i = w i := by
  show (shapeCast S256x32 w shapeCasts_S256x32_S256x32) i = w i
  rw [shapeCast_self]

/-- The new state of the block at `(p, q)`, from the gates' payloads. -/
theorem state_blk (v1 : Vec Ideal S2000x32 .f32) (v2 : FVec Ideal S2000x256 .bf16) (v17 : FVec Ideal S2000x32 .f32)
    (v33 : FVec Ideal S2000x32 .bf16) (v36 : FVec Ideal S256x32 .bf16) (v37 : Vec Ideal S32x32 .f32) (v43 : Vec Ideal S1x32 .f32)
    (p : Fin 2000) (q : Fin 32) :
    k0_pay1 v1 v2 v17 v33 v36 v37 v43 (ix2 p q)
      = v17 (ix2 p q) * v1 (ix2 p q)
        + (Ideal.ofBits .f32 0x3F800000#32 - v17 (ix2 p q))
          * Ideal.tanh ((∑ k : Fin 256, v2 (ix2 p k) * v36 (ix2 k q) + ∑ k : Fin 32, v33 (ix2 p k) * v37 (ix2 k q)) + v43 (ix2 (0 : Fin 1) q)) := by
  show v17 (ix2 p q) * v1 (ix2 p q)
        + (Ideal.ofBits .f32 0x3F800000#32 - v17 (ix2 p q))
          * Ideal.tanh ((matmul dot_S2000x256_S256x32_S2000x32_1_0_0_1_n_n none v2 v36 (constant (F := Ideal) S2000x32 .f32 0x00000000#32) (ix2 p q)
              + matmul dot_S2000x32_S32x32_S2000x32_1_0_0_1_n_n none v33 (truncf .bf16 (shapeCast S32x32 v37 shapeCasts_S32x32_S32x32) bitsLt_bf16_f32) (constant (F := Ideal) S2000x32 .f32 0x00000000#32) (ix2 p q))
            + broadcastTo S2000x32 (shapeCast S1x32 v43 shapeCasts_S1x32_S1x32) broadcasts_S1x32_S2000x32 (ix2 p q)) = _
  rw [matmul_xw, matmul_hw, shapeCast_self, shapeCast_self, bcast_row]
  rfl

/-- The readout of the block at `(p, o)`, from the new state's payload. -/
theorem read_blk (v1 : Vec Ideal S2000x32 .f32) (v2 : FVec Ideal S2000x256 .bf16) (v17 : FVec Ideal S2000x32 .f32)
    (v33 : FVec Ideal S2000x32 .bf16) (v36 : FVec Ideal S256x32 .bf16) (v37 : Vec Ideal S32x32 .f32) (v43 : Vec Ideal S1x32 .f32)
    (v57 : Vec Ideal S32x3 .f32) (v60 : Vec Ideal S1x3 .f32) (p : Fin 2000) (o : Fin 3) :
    k0_pay2 v1 v2 v17 v33 v36 v37 v43 v57 v60 (ix2 p o)
      = (∑ j : Fin 32, max (k0_pay1 v1 v2 v17 v33 v36 v37 v43 (ix2 p j)) (Ideal.ofBits .f32 0x00000000#32) * v57 (ix2 j o))
        + v60 (ix2 (0 : Fin 1) o) := by
  show matmul dot_S2000x32_S32x3_S2000x3_1_0_0_1_n_n none
        (truncf .bf16 (maximumf (k0_pay1 v1 v2 v17 v33 v36 v37 v43) (broadcast S2000x32 (Scalar.ofBits (F := Ideal) .f32 0x00000000#32))) bitsLt_bf16_f32)
        (truncf .bf16 v57 bitsLt_bf16_f32) (constant (F := Ideal) S2000x3 .f32 0x00000000#32) (ix2 p o)
      + broadcastTo S2000x3 (shapeCast S1x3 v60 shapeCasts_S1x3_S1x3) broadcasts_S1x3_S2000x3 (ix2 p o) = _
  rw [matmul_hl, shapeCast_self, bcast_row3]
  rfl

/-! ## Blocks that are rows of the arrays -/

section Rows

variable (X : FVec Ideal ⟨2, ![300000, 256]⟩ .f32) (H : FVec Ideal ⟨2, ![300000, 32]⟩ .f32)
  (Wz : FVec Ideal ⟨3, ![2, 288, 32]⟩ .f32) (bz : FVec Ideal ⟨1, ![32]⟩ .f32)
  (Wr : FVec Ideal ⟨3, ![2, 288, 32]⟩ .f32) (br : FVec Ideal ⟨1, ![32]⟩ .f32)
  (Wh : FVec Ideal ⟨3, ![2, 288, 32]⟩ .f32) (bh : FVec Ideal ⟨1, ![32]⟩ .f32)
  (x0 : Vec Ideal S2000x256 .f32) (x1 : Vec Ideal S2000x32 .f32)
  (x2 : Vec Ideal S256x32 .f32) (x3 : Vec Ideal S32x32 .f32) (x4 : Vec Ideal S1x32 .f32)
  (x5 : Vec Ideal S256x32 .f32) (x6 : Vec Ideal S32x32 .f32) (x7 : Vec Ideal S1x32 .f32)
  (x8 : Vec Ideal S256x32 .f32) (x9 : Vec Ideal S32x32 .f32) (x10 : Vec Ideal S1x32 .f32)
  (row : Fin 2000 → Fin 300000)

/-- A gate of a block whose rows are nodes `row p` is the cell's gate at those nodes. -/
theorem gate_rows (W : FVec Ideal ⟨3, ![2, 288, 32]⟩ .f32) (b : FVec Ideal ⟨1, ![32]⟩ .f32)
    (w : Vec Ideal S256x32 .f32) (u : Vec Ideal S32x32 .f32) (bb : Vec Ideal S1x32 .f32)
    (h0 : ∀ p k, x0 (ix2 p k) = X (ix2 (row p) k)) (h1 : ∀ p k, x1 (ix2 p k) = H (ix2 (row p) k))
    (hw : ∀ k q, w (ix2 k q) = Cell.wsum W (Cell.lo k) q) (hu : ∀ k q, u (ix2 k q) = Cell.wsum W (Cell.hi k) q)
    (hb : ∀ q, bb (ix2 (0 : Fin 1) q) = b (ix1 q)) (p : Fin 2000) (q : Fin 32) :
    k0_pay5 x0 x1 w u bb (ix2 p q) = Cell.gate X H W b (row p) q := by
  rw [gate_blk]
  unfold Cell.gate Cell.pre
  simp only [h0, h1, hw, hu, hb]

/-- The new state of a block whose rows are nodes `row p` is the cell's state at those nodes. -/
theorem state_rows
    (h0 : ∀ p k, x0 (ix2 p k) = X (ix2 (row p) k)) (h1 : ∀ p k, x1 (ix2 p k) = H (ix2 (row p) k))
    (h2 : ∀ k q, x2 (ix2 k q) = Cell.wsum Wz (Cell.lo k) q) (h3 : ∀ k q, x3 (ix2 k q) = Cell.wsum Wz (Cell.hi k) q)
    (h4 : ∀ q, x4 (ix2 (0 : Fin 1) q) = bz (ix1 q))
    (h5 : ∀ k q, x5 (ix2 k q) = Cell.wsum Wr (Cell.lo k) q) (h6 : ∀ k q, x6 (ix2 k q) = Cell.wsum Wr (Cell.hi k) q)
    (h7 : ∀ q, x7 (ix2 (0 : Fin 1) q) = br (ix1 q))
    (h8 : ∀ k q, x8 (ix2 k q) = Cell.wsum Wh (Cell.lo k) q) (h9 : ∀ k q, x9 (ix2 k q) = Cell.wsum Wh (Cell.hi k) q)
    (h10 : ∀ q, x10 (ix2 (0 : Fin 1) q) = bh (ix1 q)) (p : Fin 2000) (q : Fin 32) :
    k0_pay1 x1 (k0_pay3 x0) (k0_pay5 x0 x1 x2 x3 x4) (k0_pay6 x0 x1 x5 x6 x7) (k0_pay7 x8) x9 x10 (ix2 p q)
      = Cell.state X H Wz bz Wr br Wh bh (row p) q := by
  have hZ : ∀ p q, k0_pay5 x0 x1 x2 x3 x4 (ix2 p q) = Cell.gate X H Wz bz (row p) q :=
    gate_rows X H x0 x1 row Wz bz x2 x3 x4 h0 h1 h2 h3 h4
  have hR : ∀ p q, k0_pay5 x0 x1 x5 x6 x7 (ix2 p q) = Cell.gate X H Wr br (row p) q :=
    gate_rows X H x0 x1 row Wr br x5 x6 x7 h0 h1 h5 h6 h7
  rw [state_blk]
  unfold Cell.state Cell.cand Cell.pre
  simp only [hZ, reset_blk, hR, xcast_blk, wcast_blk, h0, h1, h8, h9, h10]

/-- The readout of a block whose rows are nodes `row p` is the cell's readout at those nodes. -/
theorem read_rows (Wl : FVec Ideal ⟨2, ![32, 3]⟩ .f32) (bl : FVec Ideal ⟨1, ![3]⟩ .f32)
    (x11 : Vec Ideal S32x3 .f32) (x12 : Vec Ideal S1x3 .f32)
    (h0 : ∀ p k, x0 (ix2 p k) = X (ix2 (row p) k)) (h1 : ∀ p k, x1 (ix2 p k) = H (ix2 (row p) k))
    (h2 : ∀ k q, x2 (ix2 k q) = Cell.wsum Wz (Cell.lo k) q) (h3 : ∀ k q, x3 (ix2 k q) = Cell.wsum Wz (Cell.hi k) q)
    (h4 : ∀ q, x4 (ix2 (0 : Fin 1) q) = bz (ix1 q))
    (h5 : ∀ k q, x5 (ix2 k q) = Cell.wsum Wr (Cell.lo k) q) (h6 : ∀ k q, x6 (ix2 k q) = Cell.wsum Wr (Cell.hi k) q)
    (h7 : ∀ q, x7 (ix2 (0 : Fin 1) q) = br (ix1 q))
    (h8 : ∀ k q, x8 (ix2 k q) = Cell.wsum Wh (Cell.lo k) q) (h9 : ∀ k q, x9 (ix2 k q) = Cell.wsum Wh (Cell.hi k) q)
    (h10 : ∀ q, x10 (ix2 (0 : Fin 1) q) = bh (ix1 q))
    (h11 : ∀ j o, x11 (ix2 j o) = Wl (ix2 j o)) (h12 : ∀ o, x12 (ix2 (0 : Fin 1) o) = bl (ix1 o)) (p : Fin 2000) (o : Fin 3) :
    k0_pay2 x1 (k0_pay3 x0) (k0_pay5 x0 x1 x2 x3 x4) (k0_pay6 x0 x1 x5 x6 x7) (k0_pay7 x8) x9 x10 x11 x12 (ix2 p o)
      = Cell.readAt X H Wz bz Wr br Wh bh Wl bl (row p) o := by
  have hS : ∀ p q, k0_pay1 x1 (k0_pay3 x0) (k0_pay5 x0 x1 x2 x3 x4) (k0_pay6 x0 x1 x5 x6 x7) (k0_pay7 x8) x9 x10 (ix2 p q)
      = Cell.state X H Wz bz Wr br Wh bh (row p) q :=
    state_rows X H Wz bz Wr br Wh bh x0 x1 x2 x3 x4 x5 x6 x7 x8 x9 x10 row h0 h1 h2 h3 h4 h5 h6 h7 h8 h9 h10
  rw [read_blk]
  unfold Cell.readAt
  simp only [hS, h11, h12]

end Rows

end Cert.Cell.Ker

end
-- ==== Proof.KernelBlocks.lean ====
/-
  From what each grid point writes back to the two result arrays.

  The grid has 150 points; point `t` stages rows `2000 t … 2000 t + 1999` of `x` and of the hidden state, the same
  whole weight and bias arrays at every point, and writes back rows `2000 t … 2000 t + 1999` of the new state and
  of the readout. So what point `t` writes back is block `t` of the cell's `newH` (of its `readout`), the 150 blocks
  cover all 300000 rows (row `r` lies in block `r / 2000`), and after the run the two result arrays hold the cell's
  `newH` and `readout` of the arguments.
-/
import proofs.«168846_j50465865728448_1_alg».proof.Proof.Gen.KernelIdeal.Value
import proofs.«168846_j50465865728448_1_alg».proof.Proof.KernelHost
import proofs.«168846_j50465865728448_1_alg».proof.Proof.KernelPay

set_option maxRecDepth 16384

noncomputable section

namespace Cert.Cell.Ker

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the grid: the row windows move with the point, the others stay -/

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 2) = t.val ∧ win0_1.index t (1 : Fin 2) = 0 :=
  (by decide +kernel : ∀ t : Fin grid0.N, _)

theorem idx_13 : ∀ t : Fin cfg0.N, win0_13.index t (0 : Fin 2) = t.val ∧ win0_13.index t (1 : Fin 2) = 0 :=
  (by decide +kernel : ∀ t : Fin grid0.N, _)

theorem idx_14 : ∀ t : Fin cfg0.N, win0_14.index t (0 : Fin 2) = t.val ∧ win0_14.index t (1 : Fin 2) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_4 : ∀ t : Fin cfg0.N, win0_4.index t (0 : Fin 2) = 0 ∧ win0_4.index t (1 : Fin 2) = 0 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_7 : ∀ t : Fin cfg0.N, win0_7.index t (0 : Fin 2) = 0 ∧ win0_7.index t (1 : Fin 2) = 0 :=
  (by decide +kernel : ∀ t : Fin grid0.N, _)

theorem idx_8 : ∀ t : Fin cfg0.N, win0_8.index t (0 : Fin 2) = 0 ∧ win0_8.index t (1 : Fin 2) = 0 :=
  (by decide +kernel : ∀ t : Fin grid0.N, _)

theorem idx_9 : ∀ t : Fin cfg0.N, win0_9.index t (0 : Fin 2) = 0 ∧ win0_9.index t (1 : Fin 2) = 0 :=
  (by decide +kernel : ∀ t : Fin grid0.N, _)

theorem idx_10 : ∀ t : Fin cfg0.N, win0_10.index t (0 : Fin 2) = 0 ∧ win0_10.index t (1 : Fin 2) = 0 :=
  (by decide +kernel : ∀ t : Fin grid0.N, _)

theorem idx_11 : ∀ t : Fin cfg0.N, win0_11.index t (0 : Fin 2) = 0 ∧ win0_11.index t (1 : Fin 2) = 0 :=
  (by decide +kernel : ∀ t : Fin grid0.N, _)

theorem idx_12 : ∀ t : Fin cfg0.N, win0_12.index t (0 : Fin 2) = 0 ∧ win0_12.index t (1 : Fin 2) = 0 :=
  (by decide +kernel : ∀ t : Fin grid0.N, _)

/-- The node that row `p` of point `t`'s blocks is. -/
def row (t : Fin cfg0.N) (p : Fin 2000) : Fin 300000 :=
  ⟨t.val * 2000 + p.val, by
    have ht : t.val < grid0.N := t.isLt
    rw [N_0] at ht
    have hp : p.val < 2000 := p.isLt
    omega⟩

/-! ## The input blocks at a point, read off the arguments -/

theorem blk0_at (c : Dev nD) (t : Fin cfg0.N) (p : Fin 2000) (k : Fin 256) :
    (iblk m c 0 t : Vec Ideal S2000x256 .f32) (ix2 p k) = (m ((c : Thread nD τ).loc main_arg0)) (ix2 (row t p) k) := by
  obtain ⟨e0, e1⟩ := idx_0 t
  show V m c main_arg0 (((cfg0.win 0).blk t).view.emb (ix2 p k)) = _
  rw [V_main_arg0 m c]
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

theorem blk1_at (c : Dev nD) (t : Fin cfg0.N) (p : Fin 2000) (k : Fin 32) :
    (iblk m c 1 t : Vec Ideal S2000x32 .f32) (ix2 p k) = (m ((c : Thread nD τ).loc main_arg3)) (ix2 (row t p) k) := by
  obtain ⟨e0, e1⟩ := idx_1 t
  show V m c main_arg3 (((cfg0.win 1).blk t).view.emb (ix2 p k)) = _
  rw [V_main_arg3 m c]
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 32 + 1 * k.val = k.val; rw [e1]; omega

theorem blk2_at (c : Dev nD) (t : Fin cfg0.N) (k : Fin 256) (q : Fin 32) :
    (iblk m c 2 t : Vec Ideal S256x32 .f32) (ix2 k q) = Cell.wsum (m ((c : Thread nD τ).loc main_arg4)) (Cell.lo k) q := by
  obtain ⟨e0, e1⟩ := idx_2 t
  have e : ((cfg0.win 2).blk t).view.emb (ix2 k q) = ix2 k q := funext fun a => Fin.ext (by
    match a with
    | ⟨0, _⟩ => show win0_2.index t (0 : Fin 2) * 256 + 1 * k.val = k.val; rw [e0]; omega
    | ⟨1, _⟩ => show win0_2.index t (1 : Fin 2) * 32 + 1 * q.val = q.val; rw [e1]; omega)
  show V m c main_v15 (((cfg0.win 2).blk t).view.emb (ix2 k q)) = _
  rw [e]
  rw [V_v15 m c]; exact lo_at _ k q

theorem blk3_at (c : Dev nD) (t : Fin cfg0.N) (k : Fin 32) (q : Fin 32) :
    (iblk m c 3 t : Vec Ideal S32x32 .f32) (ix2 k q) = Cell.wsum (m ((c : Thread nD τ).loc main_arg4)) (Cell.hi k) q := by
  obtain ⟨e0, e1⟩ := idx_3 t
  have e : ((cfg0.win 3).blk t).view.emb (ix2 k q) = ix2 k q := funext fun a => Fin.ext (by
    match a with
    | ⟨0, _⟩ => show win0_3.index t (0 : Fin 2) * 32 + 1 * k.val = k.val; rw [e0]; omega
    | ⟨1, _⟩ => show win0_3.index t (1 : Fin 2) * 32 + 1 * q.val = q.val; rw [e1]; omega)
  show V m c main_v16 (((cfg0.win 3).blk t).view.emb (ix2 k q)) = _
  rw [e]
  rw [V_v16 m c]; exact hi_at _ k q

theorem blk5_at (c : Dev nD) (t : Fin cfg0.N) (k : Fin 256) (q : Fin 32) :
    (iblk m c 5 t : Vec Ideal S256x32 .f32) (ix2 k q) = Cell.wsum (m ((c : Thread nD τ).loc main_arg6)) (Cell.lo k) q := by
  obtain ⟨e0, e1⟩ := idx_5 t
  have e : ((cfg0.win 5).blk t).view.emb (ix2 k q) = ix2 k q := funext fun a => Fin.ext (by
    match a with
    | ⟨0, _⟩ => show win0_5.index t (0 : Fin 2) * 256 + 1 * k.val = k.val; rw [e0]; omega
    | ⟨1, _⟩ => show win0_5.index t (1 : Fin 2) * 32 + 1 * q.val = q.val; rw [e1]; omega)
  show V m c main_v17 (((cfg0.win 5).blk t).view.emb (ix2 k q)) = _
  rw [e]
  rw [V_v17 m c]; exact lo_at _ k q

theorem blk6_at (c : Dev nD) (t : Fin cfg0.N) (k : Fin 32) (q : Fin 32) :
    (iblk m c 6 t : Vec Ideal S32x32 .f32) (ix2 k q) = Cell.wsum (m ((c : Thread nD τ).loc main_arg6)) (Cell.hi k) q := by
  obtain ⟨e0, e1⟩ := idx_6 t
  have e : ((cfg0.win 6).blk t).view.emb (ix2 k q) = ix2 k q := funext fun a => Fin.ext (by
    match a with
    | ⟨0, _⟩ => show win0_6.index t (0 : Fin 2) * 32 + 1 * k.val = k.val; rw [e0]; omega
    | ⟨1, _⟩ => show win0_6.index t (1 : Fin 2) * 32 + 1 * q.val = q.val; rw [e1]; omega)
  show V m c main_v18 (((cfg0.win 6).blk t).view.emb (ix2 k q)) = _
  rw [e]
  rw [V_v18 m c]; exact hi_at _ k q

theorem blk8_at (c : Dev nD) (t : Fin cfg0.N) (k : Fin 256) (q : Fin 32) :
    (iblk m c 8 t : Vec Ideal S256x32 .f32) (ix2 k q) = Cell.wsum (m ((c : Thread nD τ).loc main_arg8)) (Cell.lo k) q := by
  obtain ⟨e0, e1⟩ := idx_8 t
  have e : ((cfg0.win 8).blk t).view.emb (ix2 k q) = ix2 k q := funext fun a => Fin.ext (by
    match a with
    | ⟨0, _⟩ => show win0_8.index t (0 : Fin 2) * 256 + 1 * k.val = k.val; rw [e0]; omega
    | ⟨1, _⟩ => show win0_8.index t (1 : Fin 2) * 32 + 1 * q.val = q.val; rw [e1]; omega)
  show V m c main_v19 (((cfg0.win 8).blk t).view.emb (ix2 k q)) = _
  rw [e]
  rw [V_v19 m c]; exact lo_at _ k q

theorem blk9_at (c : Dev nD) (t : Fin cfg0.N) (k : Fin 32) (q : Fin 32) :
    (iblk m c 9 t : Vec Ideal S32x32 .f32) (ix2 k q) = Cell.wsum (m ((c : Thread nD τ).loc main_arg8)) (Cell.hi k) q := by
  obtain ⟨e0, e1⟩ := idx_9 t
  have e : ((cfg0.win 9).blk t).view.emb (ix2 k q) = ix2 k q := funext fun a => Fin.ext (by
    match a with
    | ⟨0, _⟩ => show win0_9.index t (0 : Fin 2) * 32 + 1 * k.val = k.val; rw [e0]; omega
    | ⟨1, _⟩ => show win0_9.index t (1 : Fin 2) * 32 + 1 * q.val = q.val; rw [e1]; omega)
  show V m c main_v20 (((cfg0.win 9).blk t).view.emb (ix2 k q)) = _
  rw [e]
  rw [V_v20 m c]; exact hi_at _ k q

theorem blk11_at (c : Dev nD) (t : Fin cfg0.N) (j : Fin 32) (o : Fin 3) :
    (iblk m c 11 t : Vec Ideal S32x3 .f32) (ix2 j o) = (m ((c : Thread nD τ).loc main_arg10)) (ix2 j o) := by
  obtain ⟨e0, e1⟩ := idx_11 t
  have e : ((cfg0.win 11).blk t).view.emb (ix2 j o) = ix2 j o := funext fun a => Fin.ext (by
    match a with
    | ⟨0, _⟩ => show win0_11.index t (0 : Fin 2) * 32 + 1 * j.val = j.val; rw [e0]; omega
    | ⟨1, _⟩ => show win0_11.index t (1 : Fin 2) * 3 + 1 * o.val = o.val; rw [e1]; omega)
  show V m c main_arg10 (((cfg0.win 11).blk t).view.emb (ix2 j o)) = _
  rw [e]
  rw [V_main_arg10 m c]

theorem blk4_at (c : Dev nD) (t : Fin cfg0.N) (q : Fin 32) :
    (iblk m c 4 t : Vec Ideal S1x32 .f32) (ix2 (0 : Fin 1) q) = (m ((c : Thread nD τ).loc main_arg5)) (ix1 q) := by
  obtain ⟨e0, e1⟩ := idx_4 t
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e0]
    | ⟨1, _⟩ => show win0_4.index t (1 : Fin 2) * 32 + 1 * q.val = q.val; rw [e1]; omega)
  show V m c main_v21 (((cfg0.win 4).blk t).view.emb (ix2 (0 : Fin 1) q)) = _
  rw [e, V_v21 m c]
  exact bias_at _ q

theorem blk7_at (c : Dev nD) (t : Fin cfg0.N) (q : Fin 32) :
    (iblk m c 7 t : Vec Ideal S1x32 .f32) (ix2 (0 : Fin 1) q) = (m ((c : Thread nD τ).loc main_arg7)) (ix1 q) := by
  obtain ⟨e0, e1⟩ := idx_7 t
  have e : ((cfg0.win 7).blk t).view.emb (ix2 (0 : Fin 1) q) = ix2 (0 : Fin 1) q := funext fun a => Fin.ext (by
    match a with
    | ⟨0, _⟩ => show win0_7.index t (0 : Fin 2) * 1 + 1 * 0 = 0; rw [e0]
    | ⟨1, _⟩ => show win0_7.index t (1 : Fin 2) * 32 + 1 * q.val = q.val; rw [e1]; omega)
  show V m c main_v22 (((cfg0.win 7).blk t).view.emb (ix2 (0 : Fin 1) q)) = _
  rw [e, V_v22 m c]
  exact bias_at _ q

theorem blk10_at (c : Dev nD) (t : Fin cfg0.N) (q : Fin 32) :
    (iblk m c 10 t : Vec Ideal S1x32 .f32) (ix2 (0 : Fin 1) q) = (m ((c : Thread nD τ).loc main_arg9)) (ix1 q) := by
  obtain ⟨e0, e1⟩ := idx_10 t
  have e : ((cfg0.win 10).blk t).view.emb (ix2 (0 : Fin 1) q) = ix2 (0 : Fin 1) q := funext fun a => Fin.ext (by
    match a with
    | ⟨0, _⟩ => show win0_10.index t (0 : Fin 2) * 1 + 1 * 0 = 0; rw [e0]
    | ⟨1, _⟩ => show win0_10.index t (1 : Fin 2) * 32 + 1 * q.val = q.val; rw [e1]; omega)
  show V m c main_v23 (((cfg0.win 10).blk t).view.emb (ix2 (0 : Fin 1) q)) = _
  rw [e, V_v23 m c]
  exact bias_at _ q

theorem blk12_at (c : Dev nD) (t : Fin cfg0.N) (o : Fin 3) :
    (iblk m c 12 t : Vec Ideal S1x3 .f32) (ix2 (0 : Fin 1) o) = (m ((c : Thread nD τ).loc main_arg11)) (ix1 o) := by
  obtain ⟨e0, e1⟩ := idx_12 t
  have e : ((cfg0.win 12).blk t).view.emb (ix2 (0 : Fin 1) o) = ix2 (0 : Fin 1) o := funext fun a => Fin.ext (by
    match a with
    | ⟨0, _⟩ => show win0_12.index t (0 : Fin 2) * 1 + 1 * 0 = 0; rw [e0]
    | ⟨1, _⟩ => show win0_12.index t (1 : Fin 2) * 3 + 1 * o.val = o.val; rw [e1]; omega)
  show V m c main_v24 (((cfg0.win 12).blk t).view.emb (ix2 (0 : Fin 1) o)) = _
  rw [e, V_v24 m c]
  exact bias3_at _ o

/-! ## What a point writes back -/

/-- Point `t` writes back block `t` of the cell's new hidden state. -/
theorem flushed13_eq (c : Dev nD) (t : Fin cfg0.N) :
    (dats m 0 c).flushed 13 t = ((cfg0.win 13).blk t).view.read (Elt Ideal) (Cell.newH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed13]
  unfold out0_13
  rw [View.canon_unit_zero hz]
  simp only [View.ld_unit_zero (S := S2000x256) hz, View.ld_unit_zero (S := S2000x32) hz, View.ld_unit_zero (S := S256x32) hz, View.ld_unit_zero (S := S32x32) hz, View.ld_unit_zero (S := S1x32) hz]
  funext y
  obtain ⟨p, q, rfl⟩ : ∃ (p : Fin 2000) (q : Fin 32), y = ix2 p q := ⟨y 0, y 1, eq_ix2 y⟩
  obtain ⟨e0, e1⟩ := idx_13 t
  have e : ((cfg0.win 13).blk t).view.emb (ix2 p q) = ix2 (row t p) q := funext fun a => Fin.ext (by
    match a with
    | ⟨0, _⟩ => show win0_13.index t (0 : Fin 2) * 2000 + 1 * p.val = t.val * 2000 + p.val; rw [e0]; omega
    | ⟨1, _⟩ => show win0_13.index t (1 : Fin 2) * 32 + 1 * q.val = q.val; rw [e1]; omega)
  show k0_pay1 (iblk m c 1 t) (k0_pay3 (iblk m c 0 t)) (k0_pay5 (iblk m c 0 t) (iblk m c 1 t) (iblk m c 2 t) (iblk m c 3 t) (iblk m c 4 t)) (k0_pay6 (iblk m c 0 t) (iblk m c 1 t) (iblk m c 5 t) (iblk m c 6 t) (iblk m c 7 t)) (k0_pay7 (iblk m c 8 t)) (iblk m c 9 t) (iblk m c 10 t) (ix2 p q)
      = Cell.newH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 13).blk t).view.emb (ix2 p q))
  rw [e]
  exact state_rows (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (row t)
    (blk0_at m c t) (blk1_at m c t) (blk2_at m c t) (blk3_at m c t) (blk4_at m c t) (blk5_at m c t) (blk6_at m c t) (blk7_at m c t) (blk8_at m c t) (blk9_at m c t) (blk10_at m c t) p q

/-- Point `t` writes back block `t` of the cell's readout. -/
theorem flushed14_eq (c : Dev nD) (t : Fin cfg0.N) :
    (dats m 0 c).flushed 14 t = ((cfg0.win 14).blk t).view.read (Elt Ideal) (Cell.readout (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Value.flushed14]
  unfold out0_14
  rw [View.canon_unit_zero hz]
  simp only [View.ld_unit_zero (S := S2000x256) hz, View.ld_unit_zero (S := S2000x32) hz, View.ld_unit_zero (S := S256x32) hz, View.ld_unit_zero (S := S32x32) hz, View.ld_unit_zero (S := S1x32) hz, View.ld_unit_zero (S := S32x3) hz, View.ld_unit_zero (S := S1x3) hz]
  funext y
  obtain ⟨p, o, rfl⟩ : ∃ (p : Fin 2000) (o : Fin 3), y = ix2 p o := ⟨y 0, y 1, eq_ix2 y⟩
  obtain ⟨e0, e1⟩ := idx_14 t
  have e : ((cfg0.win 14).blk t).view.emb (ix2 p o) = ix2 (row t p) o := funext fun a => Fin.ext (by
    match a with
    | ⟨0, _⟩ => show win0_14.index t (0 : Fin 2) * 2000 + 1 * p.val = t.val * 2000 + p.val; rw [e0]; omega
    | ⟨1, _⟩ => show win0_14.index t (1 : Fin 2) * 3 + 1 * o.val = o.val; rw [e1]; omega)
  show k0_pay2 (iblk m c 1 t) (k0_pay3 (iblk m c 0 t)) (k0_pay5 (iblk m c 0 t) (iblk m c 1 t) (iblk m c 2 t) (iblk m c 3 t) (iblk m c 4 t)) (k0_pay6 (iblk m c 0 t) (iblk m c 1 t) (iblk m c 5 t) (iblk m c 6 t) (iblk m c 7 t)) (k0_pay7 (iblk m c 8 t)) (iblk m c 9 t) (iblk m c 10 t) (iblk m c 11 t) (iblk m c 12 t) (ix2 p o)
      = Cell.readout (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 14).blk t).view.emb (ix2 p o))
  rw [e]
  exact read_rows (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (row t) (m ((c : Thread nD τ).loc main_arg10)) (m ((c : Thread nD τ).loc main_arg11)) (iblk m c 11 t) (iblk m c 12 t)
    (blk0_at m c t) (blk1_at m c t) (blk2_at m c t) (blk3_at m c t) (blk4_at m c t) (blk5_at m c t) (blk6_at m c t) (blk7_at m c t) (blk8_at m c t) (blk9_at m c t) (blk10_at m c t) (blk11_at m c t) (blk12_at m c t) p o

/-! ## The blocks cover the arrays -/

theorem mem_blk13 (t : Fin cfg0.N) (i : S300000x32.Idx) :
    i ∈ ((cfg0.win 13).blk t).view.set ↔ ∀ a : Fin 2, win0_13.index t a * S2000x32.size a ≤ (i a).val ∧ (i a).val < win0_13.index t a * S2000x32.size a + S2000x32.size a := by
  show i ∈ ((View.whole main_v25_0).slice (win0_13.rect t)).set ↔ _
  rw [View.set_slice_whole, Rect.mem_set_unit]
  exact Iff.rfl

theorem mem_blk14 (t : Fin cfg0.N) (i : S300000x3.Idx) :
    i ∈ ((cfg0.win 14).blk t).view.set ↔ ∀ a : Fin 2, win0_14.index t a * S2000x3.size a ≤ (i a).val ∧ (i a).val < win0_14.index t a * S2000x3.size a + S2000x3.size a := by
  show i ∈ ((View.whole main_v25_1).slice (win0_14.rect t)).set ↔ _
  rw [View.set_slice_whole, Rect.mem_set_unit]
  exact Iff.rfl

/-- Row `r` of the new state lies in the block of point `r / 2000`. -/
theorem cover13 (i : S300000x32.Idx) : ∃ t : Fin cfg0.N, (cfg0.win 13).flush t = true ∧ i ∈ ((cfg0.win 13).blk t).view.set := by
  have hi0 : (i 0).val < 300000 := (i 0).isLt
  have hi1 : (i 1).val < 32 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨e0, e1⟩ := idx_13 t
  refine ⟨t, flush0_13 t, ?_⟩
  rw [mem_blk13]
  intro a
  match a with
  | ⟨0, _⟩ => show win0_13.index t (0 : Fin 2) * 2000 ≤ (i 0).val ∧ (i 0).val < win0_13.index t (0 : Fin 2) * 2000 + 2000; rw [e0, ht]; omega
  | ⟨1, _⟩ => show win0_13.index t (1 : Fin 2) * 32 ≤ (i 1).val ∧ (i 1).val < win0_13.index t (1 : Fin 2) * 32 + 32; rw [e1]; omega

/-- Row `r` of the readout lies in the block of point `r / 2000`. -/
theorem cover14 (i : S300000x3.Idx) : ∃ t : Fin cfg0.N, (cfg0.win 14).flush t = true ∧ i ∈ ((cfg0.win 14).blk t).view.set := by
  have hi0 : (i 0).val < 300000 := (i 0).isLt
  have hi1 : (i 1).val < 3 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨e0, e1⟩ := idx_14 t
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; rw [e0, ht]; omega
  | ⟨1, _⟩ => show win0_14.index t (1 : Fin 2) * 3 ≤ (i 1).val ∧ (i 1).val < win0_14.index t (1 : Fin 2) * 3 + 3; rw [e1]; omega

/-! ## The result arrays after the run -/

theorem final13 (c : Dev nD) : (dats m 0 c).arrAt 13 cfg0.N = Cell.newH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 13 (Cell.newH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed13_eq m c t) cover13

theorem final14 (c : Dev nD) : (dats m 0 c).arrAt 14 cfg0.N = Cell.readout (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 14 (Cell.readout (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => flushed14_eq m c t) cover14

/-- The kernel's run: the readout and the new hidden state of the arguments, the arguments unchanged. -/
theorem run : θ_run defs (onTc (τ := τ) (main (F := Ideal))) ⟨m, fun _ => 0, ρ⟩ fun r => ∀ c : Dev nD,
      r.2.mem ((c : Thread nD τ).loc main_v25_1) = Cell.readout (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v25_0) = Cell.newH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).2.1.trans (final14 m c), (h c).1.trans (final13 m c), (h c).2.2⟩)
    (Value.run_blocks m ρ)

end Cert.Cell.Ker

end
-- ==== Proof.lean ====
/-
  A gated recurrent cell over 300000 graph nodes whose diffusion convolution has a single step, so that it never
  reaches the graph: the edge arrays are read by neither program, and every gate is a dense layer over the row
  `[x_n, g_n]` (256 + 32 columns) against the sum of the two directions' weights. The kernel is one grid of 150
  blocks of 2000 nodes; the reference is the plain array program.

  Both programs compute, on the extended reals, the functions of `Cert.Cell` (Proof/CellSpec.lean):
      Z = logistic ([x, h] · (Wz 0 + Wz 1) + bz),   R = logistic ([x, h] · (Wr 0 + Wr 1) + br),
      C = tanh ([x, R ⊙ h] · (Wh 0 + Wh 1) + bh),   H' = Z ⊙ h + (1 − Z) ⊙ C,   out = max H' 0 · Wl + bl.
  They differ in three ways, none of which changes a value there. The kernel contracts the `x` columns and the
  hidden columns in two products and adds them, where the reference contracts the concatenated row in one: a
  regrouping of a finite sum. The kernel's logistic operation is `1 / (1 + exp (−a))`, which the reference spells
  out with the pattern of 1.0, the number one. The kernel rounds the products' operands to a shorter format, which
  is the identity on the extended reals. No law used needs a finite input, so the precondition is never opened.

  Proof/RefSide.lean reads the reference's run as the cell; Proof/KernelHost.lean, Proof/KernelPay.lean and
  Proof/KernelBlocks.lean read the kernel's run as the cell, block by block. The two frames of the kernel are its
  generated frame at each instance; the reference's frame is its run with the results dropped; the idealized kernel
  is the kernel's own text read on the extended reals, so nothing is owed for it.
-/
import proofs.«168846_j50465865728448_1_alg».proof.Defs
import proofs.«168846_j50465865728448_1_alg».proof.Proof.Gen.Kernel
import proofs.«168846_j50465865728448_1_alg».proof.Proof.Gen.Kernel.Skeleton
import proofs.«168846_j50465865728448_1_alg».proof.Proof.Gen.Kernel.Launch
import proofs.«168846_j50465865728448_1_alg».proof.Proof.Gen.Kernel.Points
import proofs.«168846_j50465865728448_1_alg».proof.Proof.Gen.Kernel.Frame
import proofs.«168846_j50465865728448_1_alg».proof.Proof.Gen.KernelIdeal
import proofs.«168846_j50465865728448_1_alg».proof.Proof.Gen.KernelIdeal.Skeleton
import proofs.«168846_j50465865728448_1_alg».proof.Proof.Gen.KernelIdeal.Launch
import proofs.«168846_j50465865728448_1_alg».proof.Proof.Gen.KernelIdeal.Points
import proofs.«168846_j50465865728448_1_alg».proof.Proof.Gen.KernelIdeal.Frame
import proofs.«168846_j50465865728448_1_alg».proof.Proof.Gen.ReferenceIdeal
import proofs.«168846_j50465865728448_1_alg».proof.Proof.Gen.Pre_finite_inputs
import proofs.«168846_j50465865728448_1_alg».proof.Proof.Gen.KernelIdeal.Value
import proofs.«168846_j50465865728448_1_alg».proof.Proof.Gen.ReferenceIdeal.Run
import proofs.«168846_j50465865728448_1_alg».proof.Proof.Gen.ReferenceIdeal.Read
import proofs.«168846_j50465865728448_1_alg».proof.Proof.RefSide
import proofs.«168846_j50465865728448_1_alg».proof.Proof.KernelBlocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the cell's readout and new hidden state of the same arguments. -/
theorem algebraic : Cert.algebraic_KernelIdeal_ReferenceIdeal := by
  intro m ρ m' ρ' _ hagree
  refine ⟨_, _, Cert.Cell.Ker.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11⟩ := hagree c
  refine ⟨(h c).1.trans ?_, (h c).2.1.trans ?_, (h c).2.2⟩
  · rw [Cert.ReferenceIdeal.Read.val_main_v52_eq, Cert.Cell.Ref.readout_eq, g0, g3, g4, g5, g6, g7, g8, g9, g10, g11]
  · refine (Cert.ReferenceIdeal.Read.val_main_v47_eq _ _ _ _ _ _ _ _).trans ?_
    rw [Cert.Cell.Ref.newH_eq, g0, g3, g4, g5, g6, g7, g8, g9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
